-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8192x1024 : Shape := ⟨2, ![8192, 1024]⟩
abbrev S1024x512 : Shape := ⟨2, ![1024, 512]⟩
abbrev S512 : Shape := ⟨1, ![512]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x1024 .f32) (main_arg1 : FVec F S8192x1024 .f32) (main_arg2 : FVec F S1024x512 .f32) (main_arg3 : FVec F S512 .f32) (main_arg4 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4096x1024 : Shape := ⟨2, ![4096, 1024]⟩
abbrev S8192x1024 : Shape := ⟨2, ![8192, 1024]⟩
abbrev S1024x512 : Shape := ⟨2, ![1024, 512]⟩
abbrev S512 : Shape := ⟨1, ![512]⟩
abbrev S4096 : Shape := ⟨1, ![4096]⟩
abbrev S1x512 : Shape := ⟨2, ![1, 512]⟩
abbrev S4096x1 : Shape := ⟨2, ![4096, 1]⟩
abbrev S1x64 : Shape := ⟨2, ![1, 64]⟩
abbrev S4096x64 : Shape := ⟨2, ![4096, 64]⟩
abbrev S_ : Shape := ⟨0, ![]⟩
abbrev S4096x65 : Shape := ⟨2, ![4096, 65]⟩
abbrev S4096x128 : Shape := ⟨2, ![4096, 128]⟩
abbrev S4096x512 : Shape := ⟨2, ![4096, 512]⟩
abbrev S1024x1024 : Shape := ⟨2, ![1024, 1024]⟩
abbrev S1024 : Shape := ⟨1, ![1024]⟩
abbrev S1024x1 : Shape := ⟨2, ![1024, 1]⟩
abbrev S8192x128 : Shape := ⟨2, ![8192, 128]⟩
abbrev S512x1024 : Shape := ⟨2, ![512, 1024]⟩
abbrev S512x128 : Shape := ⟨2, ![512, 128]⟩
abbrev S512x512 : Shape := ⟨2, ![512, 512]⟩
abbrev S512x1 : Shape := ⟨2, ![512, 1]⟩
abbrev S1024x128 : Shape := ⟨2, ![1024, 128]⟩
abbrev S8192x64 : Shape := ⟨2, ![8192, 64]⟩

abbrev nBuf : Space → Nat
  | .hbm => 23
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S1024x512, .f32⟩
  | .hbm, ⟨3, _⟩ => ⟨S512, .f32⟩
  | .hbm, ⟨4, _⟩ => ⟨S4096, .i32⟩
  | .hbm, ⟨5, _⟩ => ⟨S1024x512, .bf16⟩
  | .hbm, ⟨6, _⟩ => ⟨S1x512, .f32⟩
  | .hbm, ⟨7, _⟩ => ⟨S4096x1, .i32⟩
  | .hbm, ⟨8, _⟩ => ⟨S1x64, .i32⟩
  | .hbm, ⟨9, _⟩ => ⟨S4096x64, .i32⟩
  | .hbm, ⟨10, _⟩ => ⟨S4096x64, .i32⟩
  | .hbm, ⟨11, _⟩ => ⟨S4096x64, .i1⟩
  | .hbm, ⟨12, _⟩ => ⟨S4096x64, .f32⟩
  | .hbm, ⟨13, _⟩ => ⟨S_, .f32⟩
  | .hbm, ⟨14, _⟩ => ⟨S4096x1, .f32⟩
  | .hbm, ⟨15, _⟩ => ⟨S4096x65, .f32⟩
  | .hbm, ⟨16, _⟩ => ⟨S_, .i32⟩
  | .hbm, ⟨17, _⟩ => ⟨S_, .f32⟩
  | .hbm, ⟨18, _⟩ => ⟨S4096x128, .f32⟩
  | .hbm, ⟨19, _⟩ => ⟨S4096x128, .bf16⟩
  | .hbm, ⟨20, _⟩ => ⟨S4096x512, .bf16⟩
  | .hbm, ⟨21, _⟩ => ⟨S8192x128, .f32⟩
  | .hbm, ⟨22, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S512x1024, .f32⟩
  | .local _ .vmem, ⟨7, _⟩ => ⟨S512x1024, .f32⟩
  | .local _ .vmem, ⟨8, _⟩ => ⟨S1024x512, .bf16⟩
  | .local _ .vmem, ⟨9, _⟩ => ⟨S1x512, .f32⟩
  | .local _ .vmem, ⟨10, _⟩ => ⟨S4096x512, .bf16⟩
  | .local _ .vmem, ⟨11, _⟩ => ⟨S4096x128, .bf16⟩
  | .local _ .vmem, ⟨12, _⟩ => ⟨S512x128, .f32⟩
  | .local _ .vmem, ⟨13, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

@[reducible] def k1_t1_loop : Scf.Loop 32 :=
  let c0_i32 : BitVec 32 := 0#32
  let c4_i32 : BitVec 32 := 4#32
  let v19 : BitVec 32 := Scalar.addi c0_i32 c4_i32
  let c1_i32 : BitVec 32 := 1#32
  ⟨c0_i32, v19, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c1024_i32 : BitVec 32 := 1024#32
  let v25 : BitVec 32 := Scalar.muli arg7 c1024_i32
  v25
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let c1024_i32 : BitVec 32 := 1024#32
  let v25 : BitVec 32 := Scalar.muli arg7 c1024_i32
  let v26 : BitVec 32 := v25
  let v27 : Index := Scalar.indexCast v26
  let c0_11 : Index := 0#32
  ![v27.toNat, 0]
def k1_off2 (k1_t1 : Fin k1_t1_loop.trips) : Fin 2 → Nat :=
  let c0_i32 : BitVec 32 := 0#32
  let c1_i32 : BitVec 32 := 1#32
  let arg7 : BitVec 32 := Scf.iv c0_i32 c1_i32 k1_t1
  let c1024_i32 : BitVec 32 := 1024#32
  let v25 : BitVec 32 := Scalar.muli arg7 c1024_i32
  let v26 : BitVec 32 := v25
  let v30 : Index := Scalar.indexCast v26
  let c0_12 : Index := 0#32
  ![v30.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  shapeCasts_S512_S1x512 : S512.ShapeCasts S1x512
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  bcast_S_S4096x1 : S_.BroadcastsInDim S4096x1 (![] : Fin 0 → Fin S4096x1.rank)
  concatenates_S4096x64_S4096x1_S4096x65_d1 : Shape.Concatenates [S4096x64, S4096x1] S4096x65 1
  pads_S4096x65_S4096x128_000_0630 : S4096x65.Pads (![0, 0] : Fin 2 → Nat) ![0, 63] ![0, 0] S4096x128
  h_S_ : 0 < S_.numel
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  inb_S512x1024_S512x1024_0_0 : ∀ a, (![0, 0] : Fin 2 → Nat) a + S512x1024.size a ≤ S512x1024.size a
  h_S512x1024 : 0 < S512x1024.numel
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  h_S1024x128 : 0 < S1024x128.numel
  shapeCasts_S1024x128_S1024x128 : S1024x128.ShapeCasts S1024x128
  transposes_S1024x512_p1_0_S512x1024 : S1024x512.Transposes [1, 0] S512x1024
  slices_S512x128_o0_64_S512x1 : S512x128.Slices ![0, 64] S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  slices_S8192x128_S8192x64_0_0 : S8192x128.Slices ![0, 0] S8192x64
  dot_S1024x1024_S1024x512_S1024x512_1_0_0_1_n_n_wf : DotDims.WF S1024x1024 S1024x512 S1024x512 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .bf16 = 32 ∨ (Rect.block (s := S4096x512) S1024x512.size (cc0_transform_3 i) (hinb0_3 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x512.size a ≤ S4096x512.size a
  k1_off2_inb : ∀ k1_t1 : Fin k1_t1_loop.trips, ∀ a, (k1_off2 k1_t1) a + S1024x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .bf16 = 32 ∨ (Rect.block (s := S4096x512) S4096x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S4096x128.size a
  hwx1_4 : ∀ i : grid1.Coords, EltTy.bits .bf16 = 32 ∨ (Rect.block (s := S4096x128) S4096x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S8192x128.size a
  hwx1_5 : ∀ i : grid1.Coords, EltTy.bits .f32 = 32 ∨ (Rect.block (s := S8192x128) S512x128.size (cc1_transform_5 i) (hinb1_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S4096x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S8192x1024 : Shape := ⟨2, ![8192, 1024]⟩
abbrev S1024x512 : Shape := ⟨2, ![1024, 512]⟩
abbrev S512 : Shape := ⟨1, ![512]⟩
abbrev S4096 : Shape := ⟨1, ![4096]⟩
abbrev S4096x512 : Shape := ⟨2, ![4096, 512]⟩
abbrev S1x512 : Shape := ⟨2, ![1, 512]⟩
abbrev S_ : Shape := ⟨0, ![]⟩
abbrev S4096x1 : Shape := ⟨2, ![4096, 1]⟩
abbrev S8192x512 : Shape := ⟨2, ![8192, 512]⟩
abbrev S8192 : Shape := ⟨1, ![8192]⟩
abbrev S8192x1 : Shape := ⟨2, ![8192, 1]⟩
abbrev S512x4096 : Shape := ⟨2, ![512, 4096]⟩
abbrev S8192x4096 : Shape := ⟨2, ![8192, 4096]⟩
abbrev S1x64 : Shape := ⟨2, ![1, 64]⟩
abbrev S4096x64 : Shape := ⟨2, ![4096, 64]⟩
abbrev S8192x64 : Shape := ⟨2, ![8192, 64]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S1024x512, .f32⟩
  | .hbm, ⟨3, _⟩ => ⟨S512, .f32⟩
  | .hbm, ⟨4, _⟩ => ⟨S4096, .i32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S512x4096, .f32⟩
  | .hbm, ⟨34, _⟩ => ⟨S8192x4096, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x4096, .f32⟩
  | .hbm, ⟨48, _⟩ => ⟨S8192x4096, .f32⟩
  | .hbm, ⟨49, _⟩ => ⟨S4096x1, .i32⟩
  | .hbm, ⟨50, _⟩ => ⟨S1x64, .i32⟩
  | .hbm, ⟨51, _⟩ => ⟨S4096x64, .i32⟩
  | .hbm, ⟨52, _⟩ => ⟨S4096x64, .i32⟩
  | .hbm, ⟨53, _⟩ => ⟨S4096x64, .i1⟩
  | .hbm, ⟨54, _⟩ => ⟨S4096x64, .f32⟩
  | .hbm, ⟨55, _⟩ => ⟨S8192x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S1x512_S8192x512_0_1 : S1x512.BroadcastsInDim S8192x512 (![0, 1] : Fin 2 → Fin S8192x512.rank)
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S4096x512_S512x4096_1_0 : S4096x512.Transposes [1, 0] S512x4096
  reducesTo_S8192x4096_S8192_d1 : S8192x4096.ReducesTo [1] S8192
  bcast_S_S8192 : S_.BroadcastsInDim S8192 (![] : Fin 0 → Fin S8192.rank)
  bcast_S8192x1_S8192x4096_0_1 : S8192x1.BroadcastsInDim S8192x4096 (![0, 1] : Fin 2 → Fin S8192x4096.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  dot_S4096x1024_S1024x512_S4096x512_1_0_0_1_n_n_wf : DotDims.WF S4096x1024 S1024x512 S4096x512 [1] [0] [0] [1] [] []
  dot_S8192x1024_S1024x512_S8192x512_1_0_0_1_n_n_wf : DotDims.WF S8192x1024 S1024x512 S8192x512 [1] [0] [0] [1] [] []
  dot_S8192x512_S512x4096_S8192x4096_1_0_0_1_n_n_wf : DotDims.WF S8192x512 S512x4096 S8192x4096 [1] [0] [0] [1] [] []
  dot_S8192x4096_S4096x64_S8192x64_1_0_0_1_n_n_wf : DotDims.WF S8192x4096 S4096x64 S8192x64 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.Spec.lean ====
/-
  The mathematics of the matching network, over the extended reals, with no program in sight.

  A row `x` of an input goes through one linear layer, `h = x·W + b`, and is divided by
  `max (‖h‖₂) ε` (`ε` the f32 word of 1e-12): that is `emb`.  The score of query row `i` against support row `j` is the
  inner product of their embeddings.  The kernel aggregates `exp (s − 1)` against a table whose column 64 is all
  ones and divides by that column's aggregate (`aggRow`); the reference forms the softmax of the scores — the row's
  maximum subtracted — and aggregates it against the one-hot table (`refRow`).
-/
import Idealize.ShloMosaic.PureOps.Ideal
import Idealize.ShloMosaic.Lib.ValueIdx

noncomputable section

open scoped BigOperators
open Idealize.ShloMosaic

namespace Cert.Matching

/-- The floor of a norm: the f32 word nearest 1e-12. -/
abbrev eps : EReal := Ideal.ofBits .f32 0x2B8CBCCC#32
/-- The f32 word of 1. -/
abbrev one : EReal := Ideal.ofBits .f32 0x3F800000#32
/-- The f32 word of −∞. -/
abbrev ninf : EReal := Ideal.ofBits .f32 0xFF800000#32

/-- An extended real that is a real number. -/
def IsReal (x : EReal) : Prop := ∃ r : ℝ, x = (r : EReal)

section Encoder
variable {n : Nat}

/-- The linear layer: entry `d` of row `r` of `X·W + b`. -/
def lin (X : Fin n → Fin 1024 → EReal) (W : Fin 1024 → Fin 512 → EReal) (b : Fin 512 → EReal) (r : Fin n) (d : Fin 512) : EReal :=
  (∑ k : Fin 1024, X r k * W k d) + b d

/-- The divisor of row `r`: its Euclidean norm, floored by `eps`. -/
def nrm (X : Fin n → Fin 1024 → EReal) (W : Fin 1024 → Fin 512 → EReal) (b : Fin 512 → EReal) (r : Fin n) : EReal :=
  max (Ideal.sqrt (∑ d : Fin 512, lin X W b r d * lin X W b r d)) eps

/-- The embedding: the linear layer's row divided by its floored norm. -/
def emb (X : Fin n → Fin 1024 → EReal) (W : Fin 1024 → Fin 512 → EReal) (b : Fin 512 → EReal) (r : Fin n) (d : Fin 512) : EReal :=
  Ideal.div (lin X W b r d) (nrm X W b r)

end Encoder

/-- The score of query row `i` against support row `j`: the inner product of the two embeddings. -/
def score {p q : Nat} (Qe : Fin p → Fin 512 → EReal) (Se : Fin q → Fin 512 → EReal) (i : Fin p) (j : Fin q) : EReal :=
  ∑ d : Fin 512, Qe i d * Se j d

/-- One row of the kernel's result at column `c` of a 128-column table `Va`: the scores shifted by one, exponentiated,
    aggregated against column `c`, over the same aggregate against column 64. -/
def aggRow (s : Fin 4096 → EReal) (Va : Fin 4096 → Fin 128 → EReal) (c : Fin 128) : EReal :=
  Ideal.div (∑ j : Fin 4096, Ideal.exp (s j - one) * Va j c) (∑ j : Fin 4096, Ideal.exp (s j - one) * Va j 64)

/-- The maximum of a row of scores as the reference takes it: the fold of `max` from −∞, met once more with −∞. -/
def rowMax (s : Fin 4096 → EReal) : EReal := max ninf ((Finset.univ : Finset (Fin 4096)).fold max ninf s)

/-- One row of the reference's result against a column `o` of its table: the softmax of the scores aggregated against `o`. -/
def refRow (s : Fin 4096 → EReal) (o : Fin 4096 → EReal) : EReal :=
  ∑ j : Fin 4096, Ideal.div (Ideal.exp (s j - rowMax s)) (∑ j' : Fin 4096, Ideal.exp (s j' - rowMax s)) * o j

/-- The one-hot table: entry `(j, c)` is the word "label `j` equals `c`" read as a number. -/
def hot (lab : Fin 4096 → BitVec 32) (j : Fin 4096) (c : Fin 64) : EReal :=
  FloatOps.uitofp (F := Ideal) .f32 (IntOp.cmpi .eq (lab j) (BitVec.ofNat 32 c.val))

/-- The kernel's table of 128 columns: the one-hot table, then a column of ones, then zeros. -/
def vaug (lab : Fin 4096 → BitVec 32) (j : Fin 4096) (c : Fin 128) : EReal :=
  if h : c.val < 64 then hot lab j ⟨c.val, h⟩ else if c.val = 64 then one else 0

/-- The result, entry `(i, c)`: the kernel's row formula on the scores of query row `i`, at column `c` of the table. -/
def G (S : Fin 4096 → Fin 1024 → EReal) (Q : Fin 8192 → Fin 1024 → EReal) (W : Fin 1024 → Fin 512 → EReal) (b : Fin 512 → EReal)
    (lab : Fin 4096 → BitVec 32) (i : Fin 8192) (c : Fin 64) : EReal :=
  aggRow (score (emb Q W b) (emb S W b) i) (vaug lab) (Fin.castLE (by decide) c)

end Cert.Matching

end
-- ==== Proof.Softmax.lean ====
import proofs.«427850_j67095979098677_3_alg».proof.Proof.Spec

noncomputable section

open scoped BigOperators
open Idealize.ShloMosaic

namespace Cert.Matching

/-- The word of 1 is the real number one. -/
private theorem one_eq : one = ((1 : ℝ) : EReal) := by
  simp [Ideal.ofBits, Ideal.ieee, -EReal.coe_mul]; norm_num

/-- The word of −∞ is the bottom of the extended reals. -/
private theorem ninf_eq : ninf = ⊥ := by
  simp [Ideal.ofBits, Ideal.ieee]

/-- The coercion of a finite real sum is the sum of the coercions. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- On real scores the row maximum is a real number: the fold of `max` from −∞ lies strictly below +∞ because every
    entry does, and at or above the first entry, which is above −∞. -/
private theorem rowMax_real (s : Fin 4096 → EReal) (hs : ∀ j, IsReal (s j)) : IsReal (rowMax s) := by
  unfold rowMax
  rw [ninf_eq, max_bot_left]
  have hlt : (Finset.univ : Finset (Fin 4096)).fold max ⊥ s < ⊤ := by
    rw [Finset.fold_max_lt]
    refine ⟨bot_lt_top, fun j _ => ?_⟩
    obtain ⟨r, hr⟩ := hs j
    rw [hr]; exact EReal.coe_lt_top r
  have hge : s 0 ≤ (Finset.univ : Finset (Fin 4096)).fold max ⊥ s := by
    rw [Finset.le_fold_max]
    exact Or.inr ⟨0, Finset.mem_univ _, le_rfl⟩
  have hgt : ⊥ < (Finset.univ : Finset (Fin 4096)).fold max ⊥ s := by
    obtain ⟨r, hr⟩ := hs 0
    exact lt_of_lt_of_le (by rw [hr]; exact EReal.bot_lt_coe r) hge
  exact ⟨_, (EReal.coe_toReal hlt.ne hgt.ne').symm⟩

/-- The softmax law over the reals: the scores shifted by `μ` and normalized, aggregated against `o`, are the scores
    shifted by one, aggregated against `o`, over their aggregate against the constant one. -/
private theorem real_law {ι : Type} [Fintype ι] [Nonempty ι] (r o : ι → ℝ) (μ : ℝ) :
    ∑ j, Real.exp (r j - μ) * (1 / ∑ j', Real.exp (r j' - μ)) * o j
      = (∑ j, Real.exp (r j - 1) * o j) * (1 / ∑ j, Real.exp (r j - 1) * 1) := by
  have hE : ∀ j, Real.exp (r j - μ) = Real.exp (r j - 1) * Real.exp (1 - μ) := by
    intro j; rw [← Real.exp_add]; congr 1; ring
  have hD : 0 < ∑ j, Real.exp (r j - 1) := Finset.sum_pos (fun j _ => Real.exp_pos _) Finset.univ_nonempty
  have hX : 0 < Real.exp (1 - μ) := Real.exp_pos _
  have h1 : ∑ j', Real.exp (r j' - 1) * Real.exp (1 - μ) = (∑ j', Real.exp (r j' - 1)) * Real.exp (1 - μ) :=
    (Finset.sum_mul _ _ _).symm
  simp_rw [hE, mul_one]
  rw [h1]
  refine Eq.trans ?_ (Finset.sum_mul _ _ _).symm
  refine Finset.sum_congr rfl fun j _ => ?_
  field_simp

/-- Column `c < 64` of the 128-column table is column `c` of the one-hot table. -/
private theorem vaug_cast (lab : Fin 4096 → BitVec 32) (j : Fin 4096) (c : Fin 64) (h : 64 ≤ 128) :
    vaug lab j (Fin.castLE h c) = hot lab j c := by
  unfold vaug
  rw [dif_pos (show (Fin.castLE h c).val < 64 from c.isLt)]
  rfl

/-- Column 64 of the 128-column table is the constant one. -/
private theorem vaug_64 (lab : Fin 4096 → BitVec 32) (j : Fin 4096) : vaug lab j 64 = one := by
  unfold vaug
  rw [dif_neg (by decide), if_pos (by decide)]

/-- An entry of the one-hot table is the number 0 or 1. -/
theorem hot_real (lab : Fin 4096 → BitVec 32) (j : Fin 4096) (c : Fin 64) : IsReal (hot lab j c) :=
  ⟨((IntOp.cmpi .eq (lab j) (BitVec.ofNat 32 c.val)).toNat : ℝ), rfl⟩

/-- On a row of REAL scores the reference's softmax aggregate against one-hot column `c` is the kernel's quotient at
    column `c` of the 128-column table: the shift by the row's maximum and the shift by one cancel between numerator and
    denominator, and the common factor `1 / Σ` leaves the sum. -/
theorem refRow_hot_eq_aggRow (s : Fin 4096 → EReal) (hs : ∀ j, IsReal (s j)) (lab : Fin 4096 → BitVec 32) (c : Fin 64) :
    refRow s (fun j => hot lab j c) = aggRow s (vaug lab) (Fin.castLE (by decide) c) := by
  obtain ⟨μ, hμ⟩ := rowMax_real s hs
  choose r hr using hs
  choose o ho using fun j => hot_real lab j c
  have hposμ : (∑ j' : Fin 4096, Real.exp (r j' - μ)) ≠ 0 :=
    (Finset.sum_pos (fun j _ => Real.exp_pos _) Finset.univ_nonempty).ne'
  have hpos1 : (∑ j' : Fin 4096, Real.exp (r j' - 1) * 1) ≠ 0 :=
    (Finset.sum_pos (fun j _ => mul_pos (Real.exp_pos _) one_pos) Finset.univ_nonempty).ne'
  -- the reference's side, as one real number
  have hL : refRow s (fun j => hot lab j c)
      = ((∑ j, Real.exp (r j - μ) * (1 / ∑ j', Real.exp (r j' - μ)) * o j : ℝ) : EReal) := by
    unfold refRow
    rw [hμ]
    have hden : (∑ j' : Fin 4096, Ideal.exp (s j' - (μ : EReal))) = ((∑ j', Real.exp (r j' - μ) : ℝ) : EReal) := by
      rw [coe_sum]
      refine Finset.sum_congr rfl fun j _ => ?_
      rw [hr j, ← EReal.coe_sub, Ideal.exp_coe]
    refine Eq.trans ?_ (coe_sum _ _).symm
    refine Finset.sum_congr rfl fun j _ => ?_
    beta_reduce
    rw [hden, Ideal.div_coe hposμ, hr j, ← EReal.coe_sub, Ideal.exp_coe, ho j, ← EReal.coe_mul, ← EReal.coe_mul]
  -- the kernel's side, as one real number
  have hR : aggRow s (vaug lab) (Fin.castLE (by decide) c)
      = (((∑ j, Real.exp (r j - 1) * o j) * (1 / ∑ j, Real.exp (r j - 1) * 1) : ℝ) : EReal) := by
    unfold aggRow
    have hnum : (∑ j : Fin 4096, Ideal.exp (s j - one) * vaug lab j (Fin.castLE (by decide) c))
        = ((∑ j, Real.exp (r j - 1) * o j : ℝ) : EReal) := by
      rw [coe_sum]
      refine Finset.sum_congr rfl fun j _ => ?_
      rw [vaug_cast, hr j, one_eq, ← EReal.coe_sub, Ideal.exp_coe, ho j, ← EReal.coe_mul]
    have hden : (∑ j : Fin 4096, Ideal.exp (s j - one) * vaug lab j 64)
        = ((∑ j, Real.exp (r j - 1) * 1 : ℝ) : EReal) := by
      rw [coe_sum]
      refine Finset.sum_congr rfl fun j _ => ?_
      rw [vaug_64, hr j, one_eq, ← EReal.coe_sub, Ideal.exp_coe, ← EReal.coe_mul]
    rw [hnum, hden, Ideal.div_coe hpos1, ← EReal.coe_mul]
  rw [hL, hR, real_law]

end Cert.Matching

end
-- ==== Proof.Finite.lean ====
/-
  Real inputs give real embeddings and real scores.  Sums and products of real numbers are real; the square root of
  a real is real or, for a negative argument, −∞, and in either case its maximum with the positive floor is a positive
  real; a real divided by a positive real is real.
-/
import proofs.«427850_j67095979098677_3_alg».proof.Proof.Spec

noncomputable section

open scoped BigOperators
open Idealize.ShloMosaic

namespace Cert.Matching

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem isReal_zero : IsReal 0 := ⟨0, EReal.coe_zero.symm⟩

/-- A finite sum of reals is real. -/
theorem IsReal.sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- The floor of the norms is a positive real. -/
theorem eps_pos_real : ∃ e : ℝ, 0 < e ∧ eps = (e : EReal) := by
  refine ⟨9223372 * ((2 : ℝ) ^ 63)⁻¹, by positivity, ?_⟩
  unfold eps
  simp [Ideal.ofBits, Ideal.ieee]

section Encoder
variable {n : Nat} (X : Fin n → Fin 1024 → EReal) (W : Fin 1024 → Fin 512 → EReal) (b : Fin 512 → EReal)
  (hX : ∀ r k, IsReal (X r k)) (hW : ∀ k d, IsReal (W k d)) (hb : ∀ d, IsReal (b d))
include hX hW hb

theorem lin_real (r : Fin n) (d : Fin 512) : IsReal (lin X W b r d) :=
  (IsReal.sum _ _ fun k => (hX r k).mul (hW k d)).add (hb d)

/-- The floored norm of a row is a positive real. -/
theorem nrm_pos_real (r : Fin n) : ∃ ν : ℝ, 0 < ν ∧ nrm X W b r = (ν : EReal) := by
  obtain ⟨e, he, hε⟩ := eps_pos_real
  obtain ⟨ss, hss⟩ : IsReal (∑ d : Fin 512, lin X W b r d * lin X W b r d) :=
    IsReal.sum _ _ fun d => (lin_real X W b hX hW hb r d).mul (lin_real X W b hX hW hb r d)
  unfold nrm
  rw [hss, hε, Ideal.sqrt_coe]
  by_cases hneg : ss < 0
  · rw [if_pos hneg, max_eq_right bot_le]
    exact ⟨e, he, rfl⟩
  · rw [if_neg hneg]
    rcases le_total (Real.sqrt ss) e with h | h
    · rw [max_eq_right (EReal.coe_le_coe_iff.2 h)]
      exact ⟨e, he, rfl⟩
    · rw [max_eq_left (EReal.coe_le_coe_iff.2 h)]
      exact ⟨Real.sqrt ss, lt_of_lt_of_le he h, rfl⟩

theorem emb_real (r : Fin n) (d : Fin 512) : IsReal (emb X W b r d) := by
  obtain ⟨ν, hν, hn⟩ := nrm_pos_real X W b hX hW hb r
  obtain ⟨l, hl⟩ := lin_real X W b hX hW hb r d
  unfold emb
  rw [hn, hl, Ideal.div_coe (ne_of_gt hν)]
  exact ⟨l * (1 / ν), (EReal.coe_mul _ _).symm⟩

end Encoder

/-- A score of real embeddings is real. -/
theorem score_real {p q : Nat} (Qe : Fin p → Fin 512 → EReal) (Se : Fin q → Fin 512 → EReal)
    (hQ : ∀ i d, IsReal (Qe i d)) (hS : ∀ j d, IsReal (Se j d)) (i : Fin p) (j : Fin q) : IsReal (score Qe Se i j) :=
  IsReal.sum _ _ fun d => (hQ i d).mul (hS j d)

end Cert.Matching

end
-- ==== Proof.PreFinite.lean ====
/-
  The precondition read back: "the absolute value of every entry of each float input is below +∞", stated by the
  printed predicate as four reductions by `and` met by `and`, says that every such entry is a real number.
-/
import proofs.«427850_j67095979098677_3_alg».proof.Pre_finite_inputs
import proofs.«427850_j67095979098677_3_alg».proof.Proof.Spec
import Idealize.ShloMosaic.Lib.ReduceAll
import Idealize.ShloMosaic.Lib.ValueIdx

noncomputable section

open Idealize.ShloMosaic Idealize.ShloMosaic.ValueIdx
open Cert.Pre_finite_inputs Cert.Matching

namespace Cert.Matching.Pre

variable [Cert.Pre_finite_inputs.Facts]
open Cert.Pre_finite_inputs.Facts

instance : Subsingleton S_.Idx := ⟨fun a b => funext fun d => d.elim0⟩

/-- An extended real whose absolute value is below +∞ is a real number: `max x (−x)` is +∞ at both infinities. -/
theorem isReal_of_abs_lt (x : EReal)
    (h : FloatOps.cmpf (F := Ideal) (φ := .f32) .olt (FloatOps.hostAbsf (F := Ideal) (φ := .f32) x)
          (FloatOps.ofBits (F := Ideal) .f32 0x7F800000#32) = 1#1) : IsReal x := by
  have htop : FloatOps.ofBits (F := Ideal) .f32 0x7F800000#32 = (⊤ : EReal) := by simp [Ideal.ofBits, Ideal.ieee]
  rw [htop] at h
  have hlt : max x (-x) < ⊤ := by
    by_contra hc
    have e : FloatOps.cmpf (F := Ideal) (φ := .f32) .olt (FloatOps.hostAbsf (F := Ideal) (φ := .f32) x) (⊤ : EReal)
        = BitVec.ofBool (decide (max x (-x) < ⊤)) := rfl
    rw [e, decide_eq_false hc] at h
    exact absurd h (by decide)
  induction x using EReal.rec with
  | bot => simp at hlt
  | coe r => exact ⟨r, rfl⟩
  | top => simp at hlt

/-- Under the printed precondition every entry of the four float inputs is a real number. -/
theorem real_of_pre (a0 : FVec Ideal S4096x1024 .f32) (a1 : FVec Ideal S8192x1024 .f32) (a2 : FVec Ideal S1024x512 .f32)
    (a3 : FVec Ideal S512 .f32) (a4 : IVec S4096 32) (h : fn (F := Ideal) a0 a1 a2 a3 a4 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => isReal_of_abs_lt _ ?_, fun i => isReal_of_abs_lt _ ?_, fun i => isReal_of_abs_lt _ ?_, fun i => isReal_of_abs_lt _ ?_⟩
  · exact Host.reduce_andi_all _ _ _ _ _ h0' i
  · exact Host.reduce_andi_all _ _ _ _ _ h1 i
  · exact Host.reduce_andi_all _ _ _ _ _ h2 i
  · exact Host.reduce_andi_all _ _ _ _ _ h3 i

end Cert.Matching.Pre

end
-- ==== Proof.RefValue.lean ====
import proofs.«427850_j67095979098677_3_alg».proof.Proof.Gen.ReferenceIdeal.Read
import proofs.«427850_j67095979098677_3_alg».proof.Proof.Spec
import Idealize.ShloMosaic.Lib.ValueIdx
import Idealize.ShloMosaic.PureOps.Ideal.Laws

set_option maxRecDepth 16384

noncomputable section

open scoped BigOperators
open Idealize.ShloMosaic Idealize.ShloMosaic.ValueIdx
open Cert.ReferenceIdeal Cert.ReferenceIdeal.Read Cert.Matching

namespace Cert.Matching.Ref

/-! ### The encoder, on the support rows and on the query rows -/

/-- The linear layer of support row `j` at feature `d`. -/
private theorem lin_sup (x0 : (⟨S4096x1024, .f32⟩ : BufTy).Contents (Elt Ideal)) (x2 : (⟨S1024x512, .f32⟩ : BufTy).Contents (Elt Ideal)) (x3 : (⟨S512, .f32⟩ : BufTy).Contents (Elt Ideal)) (j : Fin 4096) (d : Fin 512) :
    (val_main_v3 (F := Ideal) x0 x2 x3 : S4096x512.Idx → EReal) (ix2 j d) = lin (fun r k => (x0 : S4096x1024.Idx → EReal) (ix2 r k)) (fun k d => (x2 : S1024x512.Idx → EReal) (ix2 k d)) (fun d => (x3 : S512.Idx → EReal) (ix1 d)) j d := by
  rw [val_main_v3_apply, val_main_v0_apply, val_main_v2_apply, val_main_v1_apply]
  have el : ∀ k : Fin 1024, lidx_main_v0 (ix2 j d) k = ix2 j k := fun k => funext fun a => by match a with | ⟨0, _⟩ => rfl | ⟨1, _⟩ => rfl
  have er : ∀ k : Fin 1024, ridx_main_v0 (ix2 j d) k = ix2 k d := fun k => funext fun a => by match a with | ⟨0, _⟩ => rfl | ⟨1, _⟩ => rfl
  have eb : idx_main_v1 (idx_main_v2 (ix2 j d)) = ix1 d := funext fun a => by match a with | ⟨0, _⟩ => rfl
  simp only [el, er, eb, Ideal.addf_def, lin]

/-- The embedding of support row `j` at feature `d`: the linear layer over its floored norm. -/
private theorem emb_sup (x0 : (⟨S4096x1024, .f32⟩ : BufTy).Contents (Elt Ideal)) (x2 : (⟨S1024x512, .f32⟩ : BufTy).Contents (Elt Ideal)) (x3 : (⟨S512, .f32⟩ : BufTy).Contents (Elt Ideal)) (j : Fin 4096) (d : Fin 512) :
    (val_main_v11 (F := Ideal) x0 x2 x3 : S4096x512.Idx → EReal) (ix2 j d) = emb (fun r k => (x0 : S4096x1024.Idx → EReal) (ix2 r k)) (fun k d => (x2 : S1024x512.Idx → EReal) (ix2 k d)) (fun d => (x3 : S512.Idx → EReal) (ix1 d)) j d := by
  rw [val_main_v11_apply, val_main_v10_apply, val_main_v9_apply, val_main_v7_apply, val_main_v6_apply, val_main_v5_apply,
    val_main_v8_apply, val_main_cst_0_apply, val_main_cst_apply]
  have e5 : ∀ k : Fin 512, idx_main_v5 (idx_main_v6 (idx_main_v10 (ix2 j d))) k = ix2 j k := fun k => funext fun a => by match a with | ⟨0, _⟩ => rfl | ⟨1, _⟩ => rfl
  simp only [val_main_v4_apply, e5, lin_sup, Ideal.mulf_def, Ideal.hostDivf_def, Ideal.maximumf_def, Ideal.hostUnary_sqrt_def,
    Ideal.ofBits_def, Ideal.ofBits_zero_f32, zero_add, emb, nrm]

/-- The linear layer of query row `i` at feature `d`. -/
private theorem lin_qry (x1 : (⟨S8192x1024, .f32⟩ : BufTy).Contents (Elt Ideal)) (x2 : (⟨S1024x512, .f32⟩ : BufTy).Contents (Elt Ideal)) (x3 : (⟨S512, .f32⟩ : BufTy).Contents (Elt Ideal)) (i : Fin 8192) (d : Fin 512) :
    (val_main_v15 (F := Ideal) x1 x2 x3 : S8192x512.Idx → EReal) (ix2 i d) = lin (fun r k => (x1 : S8192x1024.Idx → EReal) (ix2 r k)) (fun k d => (x2 : S1024x512.Idx → EReal) (ix2 k d)) (fun d => (x3 : S512.Idx → EReal) (ix1 d)) i d := by
  rw [val_main_v15_apply, val_main_v12_apply, val_main_v14_apply, val_main_v13_apply]
  have el : ∀ k : Fin 1024, lidx_main_v12 (ix2 i d) k = ix2 i k := fun k => funext fun a => by match a with | ⟨0, _⟩ => rfl | ⟨1, _⟩ => rfl
  have er : ∀ k : Fin 1024, ridx_main_v12 (ix2 i d) k = ix2 k d := fun k => funext fun a => by match a with | ⟨0, _⟩ => rfl | ⟨1, _⟩ => rfl
  have eb : idx_main_v13 (idx_main_v14 (ix2 i d)) = ix1 d := funext fun a => by match a with | ⟨0, _⟩ => rfl
  simp only [el, er, eb, Ideal.addf_def, lin]

/-- The embedding of query row `i` at feature `d`. -/
private theorem emb_qry (x1 : (⟨S8192x1024, .f32⟩ : BufTy).Contents (Elt Ideal)) (x2 : (⟨S1024x512, .f32⟩ : BufTy).Contents (Elt Ideal)) (x3 : (⟨S512, .f32⟩ : BufTy).Contents (Elt Ideal)) (i : Fin 8192) (d : Fin 512) :
    (val_main_v23 (F := Ideal) x1 x2 x3 : S8192x512.Idx → EReal) (ix2 i d) = emb (fun r k => (x1 : S8192x1024.Idx → EReal) (ix2 r k)) (fun k d => (x2 : S1024x512.Idx → EReal) (ix2 k d)) (fun d => (x3 : S512.Idx → EReal) (ix1 d)) i d := by
  rw [val_main_v23_apply, val_main_v22_apply, val_main_v21_apply, val_main_v19_apply, val_main_v18_apply, val_main_v17_apply,
    val_main_v20_apply, val_main_cst_2_apply, val_main_cst_1_apply]
  have e5 : ∀ k : Fin 512, idx_main_v17 (idx_main_v18 (idx_main_v22 (ix2 i d))) k = ix2 i k := fun k => funext fun a => by match a with | ⟨0, _⟩ => rfl | ⟨1, _⟩ => rfl
  simp only [val_main_v16_apply, e5, lin_qry, Ideal.mulf_def, Ideal.hostDivf_def, Ideal.maximumf_def, Ideal.hostUnary_sqrt_def,
    Ideal.ofBits_def, Ideal.ofBits_zero_f32, zero_add, emb, nrm]

/-! ### The scores, their row maximum, and the softmax -/

/-- The score of query row `i` against support row `j`: the inner product of the two embeddings (the support's
    embedding is read through its transpose). -/
private theorem score_stage (x0 : (⟨S4096x1024, .f32⟩ : BufTy).Contents (Elt Ideal)) (x1 : (⟨S8192x1024, .f32⟩ : BufTy).Contents (Elt Ideal)) (x2 : (⟨S1024x512, .f32⟩ : BufTy).Contents (Elt Ideal)) (x3 : (⟨S512, .f32⟩ : BufTy).Contents (Elt Ideal)) (i : Fin 8192) (j : Fin 4096) :
    (val_main_v25 (F := Ideal) x0 x1 x2 x3 : S8192x4096.Idx → EReal) (ix2 i j) = (score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i) j := by
  rw [val_main_v25_apply]
  have el : ∀ k : Fin 512, lidx_main_v25 (ix2 i j) k = ix2 i k := fun k => funext fun a => by match a with | ⟨0, _⟩ => rfl | ⟨1, _⟩ => rfl
  have er : ∀ k : Fin 512, idx_main_v24 (ridx_main_v25 (ix2 i j) k) = ix2 j k := fun k => funext fun a => by match a with | ⟨0, _⟩ => rfl | ⟨1, _⟩ => rfl
  simp only [val_main_v24_apply, el, er, emb_qry, emb_sup, score]

/-- The row maximum of query row `i`'s scores: the fold of `max` from −∞ over the support rows, met once more with −∞. -/
private theorem rowmax_stage (x0 : (⟨S4096x1024, .f32⟩ : BufTy).Contents (Elt Ideal)) (x1 : (⟨S8192x1024, .f32⟩ : BufTy).Contents (Elt Ideal)) (x2 : (⟨S1024x512, .f32⟩ : BufTy).Contents (Elt Ideal)) (x3 : (⟨S512, .f32⟩ : BufTy).Contents (Elt Ideal)) (i : Fin 8192) :
    (val_main_v28 (F := Ideal) x0 x1 x2 x3 : S8192.Idx → EReal) (ix1 i) = rowMax (score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i) := by
  have hR : S8192x4096.Reduces [1] S8192 := by decide
  rw [val_main_v28_apply, val_main_v27_apply, val_main_cst_4_apply]
  unfold val_main_v26
  have hfold := Host.reduce_eq_fold_single (FloatOps.maximumf (F := Ideal) (φ := .f32)) (val_main_v25 (F := Ideal) x0 x1 x2 x3)
    (val_main_cst_3 (F := Ideal)) Gen.reducesTo_S8192x4096_S8192_d1 hR Gen.h_S_ (ix1 i)
  rw [hfold, val_main_cst_3_apply]
  have hf : (val_main_v25 (F := Ideal) x0 x1 x2 x3 ∘ hR.lift (ix1 i)) = ((score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i) : Fin 4096 → EReal) :=
    funext fun (k : Fin 4096) => by
      show val_main_v25 (F := Ideal) x0 x1 x2 x3 (hR.lift (ix1 i) k) = _
      rw [show hR.lift (ix1 i) k = ix2 i k from funext fun a => Fin.ext (by match a with | ⟨0, _⟩ => rfl | ⟨1, _⟩ => rfl),
        score_stage]
  rw [hf]
  rfl

/-- The exponential of a score less its row's maximum. -/
private theorem exp_stage (x0 : (⟨S4096x1024, .f32⟩ : BufTy).Contents (Elt Ideal)) (x1 : (⟨S8192x1024, .f32⟩ : BufTy).Contents (Elt Ideal)) (x2 : (⟨S1024x512, .f32⟩ : BufTy).Contents (Elt Ideal)) (x3 : (⟨S512, .f32⟩ : BufTy).Contents (Elt Ideal)) (i : Fin 8192) (j : Fin 4096) :
    (val_main_v32 (F := Ideal) x0 x1 x2 x3 : S8192x4096.Idx → EReal) (ix2 i j)
      = Ideal.exp ((score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i) j - rowMax (score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i)) := by
  rw [val_main_v32_apply, val_main_v31_apply, val_main_v30_apply, val_main_v29_apply,
    show idx_main_v29 (idx_main_v30 (ix2 i j)) = ix1 i from funext fun a => by match a with | ⟨0, _⟩ => rfl, score_stage, rowmax_stage]
  rfl

/-- The softmax of query row `i`'s scores at support row `j`. -/
private theorem soft_stage (x0 : (⟨S4096x1024, .f32⟩ : BufTy).Contents (Elt Ideal)) (x1 : (⟨S8192x1024, .f32⟩ : BufTy).Contents (Elt Ideal)) (x2 : (⟨S1024x512, .f32⟩ : BufTy).Contents (Elt Ideal)) (x3 : (⟨S512, .f32⟩ : BufTy).Contents (Elt Ideal)) (i : Fin 8192) (j : Fin 4096) :
    (val_main_v36 (F := Ideal) x0 x1 x2 x3 : S8192x4096.Idx → EReal) (ix2 i j)
      = Ideal.div (Ideal.exp ((score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i) j - rowMax (score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i))) (∑ j' : Fin 4096, Ideal.exp ((score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i) j' - rowMax (score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i))) := by
  rw [val_main_v36_apply, val_main_v35_apply, val_main_v34_apply, val_main_v33_apply, val_main_cst_5_apply]
  have e : ∀ k : Fin 4096, idx_main_v33 (idx_main_v34 (idx_main_v35 (ix2 i j))) k = ix2 i k := fun k => funext fun a => by match a with | ⟨0, _⟩ => rfl | ⟨1, _⟩ => rfl
  simp only [e, exp_stage, Ideal.hostDivf_def, Ideal.ofBits_def, Ideal.ofBits_zero_f32, zero_add]

/-! ### The one-hot table and the last stage -/

/-- The one-hot table at `(j, c)`: the word "label `j` equals `c`" read as a number. -/
private theorem hot_stage (x4 : (⟨S4096, .i32⟩ : BufTy).Contents (Elt Ideal)) (j : Fin 4096) (c : Fin 64) :
    (val_main_v37 (F := Ideal) x4 : S4096x64.Idx → EReal) (ix2 j c) = hot (fun j => (x4 : S4096.Idx → BitVec 32) (ix1 j)) j c := by
  rw [val_main_v37_apply, val_main_call0_v4_apply, val_main_call0_v2_apply, val_main_call0_v0_apply, val_main_call0_v3_apply,
    val_main_call0_v1_apply, show idx_main_call0_v0 (idx_main_call0_v2 (ix2 j c)) = ix1 j from funext fun a => by match a with | ⟨0, _⟩ => rfl]
  rfl

/-- The last stage at `(i, c)`. -/
private theorem ref_stage_ix (x0 : (⟨S4096x1024, .f32⟩ : BufTy).Contents (Elt Ideal)) (x1 : (⟨S8192x1024, .f32⟩ : BufTy).Contents (Elt Ideal)) (x2 : (⟨S1024x512, .f32⟩ : BufTy).Contents (Elt Ideal)) (x3 : (⟨S512, .f32⟩ : BufTy).Contents (Elt Ideal)) (x4 : (⟨S4096, .i32⟩ : BufTy).Contents (Elt Ideal)) (i : Fin 8192) (c : Fin 64) :
    (val_main_v38 (F := Ideal) x0 x1 x2 x3 x4 : S8192x64.Idx → EReal) (ix2 i c)
      = refRow (score (emb (fun r k => (x1 : S8192x1024.Idx → EReal) (ix2 r k)) (fun k d => (x2 : S1024x512.Idx → EReal) (ix2 k d)) (fun d => (x3 : S512.Idx → EReal) (ix1 d))) (emb (fun r k => (x0 : S4096x1024.Idx → EReal) (ix2 r k)) (fun k d => (x2 : S1024x512.Idx → EReal) (ix2 k d)) (fun d => (x3 : S512.Idx → EReal) (ix1 d))) i) (fun j => hot (fun j => (x4 : S4096.Idx → BitVec 32) (ix1 j)) j c) := by
  rw [val_main_v38_apply]
  have el : ∀ k : Fin 4096, lidx_main_v38 (ix2 i c) k = ix2 i k := fun k => funext fun a => by match a with | ⟨0, _⟩ => rfl | ⟨1, _⟩ => rfl
  have er : ∀ k : Fin 4096, ridx_main_v38 (ix2 i c) k = ix2 k c := fun k => funext fun a => by match a with | ⟨0, _⟩ => rfl | ⟨1, _⟩ => rfl
  simp only [el, er, soft_stage, hot_stage, refRow]

/-- The reference's last stage at entry `(i, c)`: the softmax of query row `i`'s scores aggregated against one-hot column `c`. -/
theorem ref_stage (x0 : (⟨S4096x1024, .f32⟩ : BufTy).Contents (Elt Ideal)) (x1 : (⟨S8192x1024, .f32⟩ : BufTy).Contents (Elt Ideal))
    (x2 : (⟨S1024x512, .f32⟩ : BufTy).Contents (Elt Ideal)) (x3 : (⟨S512, .f32⟩ : BufTy).Contents (Elt Ideal))
    (x4 : (⟨S4096, .i32⟩ : BufTy).Contents (Elt Ideal)) (idx : S8192x64.Idx) :
    (val_main_v38 (F := Ideal) x0 x1 x2 x3 x4 : S8192x64.Idx → EReal) idx
      = refRow (score (emb (fun r k => (x1 : S8192x1024.Idx → EReal) (ix2 r k)) (fun k d => (x2 : S1024x512.Idx → EReal) (ix2 k d)) (fun d => (x3 : S512.Idx → EReal) (ix1 d)))
                      (emb (fun r k => (x0 : S4096x1024.Idx → EReal) (ix2 r k)) (fun k d => (x2 : S1024x512.Idx → EReal) (ix2 k d)) (fun d => (x3 : S512.Idx → EReal) (ix1 d))) (idx 0))
               (fun j => hot (fun j => (x4 : S4096.Idx → BitVec 32) (ix1 j)) j (idx 1)) := by
  have e : idx = ix2 (idx 0) (idx 1) := eq_ix2 idx
  exact (congrArg (fun t => (val_main_v38 (F := Ideal) x0 x1 x2 x3 x4 : S8192x64.Idx → EReal) t) e).trans
    (ref_stage_ix x0 x1 x2 x3 x4 (idx 0) (idx 1))

end Cert.Matching.Ref

end
-- ==== Proof.LibKeepdims.lean ====
/-
  A reduction along the rows of a matrix kept as a column (`keepdims=True`) and spread back over the matrix, read at
  an index. A row reduction of an `[a, b]` matrix is an `[a]` vector; `keepdims` casts it to a column `[a, 1]`, and
  the arithmetic that follows broadcasts the column to `[a, b]`. Read at `(p, c)` the result is the vector at `p`,
  whatever the column `c`. Beside that: the index a row reduction inserts — the reduced index `p` with the column
  `k` put back on axis 1 — is `(p, k)`. General in the extents and in the element type; nothing here depends on a
  kernel.
-/
import Idealize.ShloMosaic.Lib.Pipeline.Value
import Idealize.ShloMosaic.Lib.ValueIdx
import Idealize.ShloMosaic.PureOps.Reduce

namespace Idealize.ShloMosaic.Keepdims

open Idealize.ShloMosaic Idealize.ShloMosaic.ValueIdx

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and spread over the matrix reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The index a reduction along the rows inserts: the reduced index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims
-- ==== Proof.Region0.lean ====
/-
  The first region of the matching network's kernel, read as mathematics. Its body takes a block of 1024 support rows,
  multiplies it by the weights, adds the bias row, and divides each row of the result by the row's Euclidean norm
  floored by `eps`: at `(p, d)` that is the embedding `emb` of row `p` of the block at column `d`. The four grid points
  take the four consecutive blocks of 1024 rows of the support array (the weights and the bias are read whole at every
  point) and write the four consecutive blocks of 1024 rows of the result, which tile it; so the result array ends
  holding, at `(j, d)`, the embedding of support row `j` at column `d`.
-/
import proofs.«427850_j67095979098677_3_alg».proof.Proof.Gen.KernelIdeal.Frame
import proofs.«427850_j67095979098677_3_alg».proof.Proof.Spec
import proofs.«427850_j67095979098677_3_alg».proof.Proof.LibKeepdims
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.ValueIdx Idealize.ShloMosaic.TcCoe Idealize.SL.Sem
open Cert.KernelIdeal Cert.KernelIdeal.Gen Cert.Matching

namespace Cert.Matching.Ker

/-! ## The body's arithmetic at an index -/

section Payload
variable {F : FTy → Type} [FloatOps F]

/-- The body's linear layer on a block: the block times the weights, plus the bias row spread over the rows. -/
private def hid (x0 : Vec F S1024x1024 .f32) (x1 : Vec F S1024x512 .bf16) (x2 : Vec F S1x512 .f32) : FVec F S1024x512 .f32 :=
  addf (matmul dot_S1024x1024_S1024x512_S1024x512_1_0_0_1_n_n none (truncf .bf16 x0 bitsLt_bf16_f32 : FVec F S1024x1024 .bf16)
      (shapeCast S1024x512 x1 shapeCasts_S1024x512_S1024x512 : FVec F S1024x512 .bf16) (constant S1024x512 .f32 0x00000000#32))
    (broadcastTo S1024x512 (shapeCast S1x512 x2 shapeCasts_S1x512_S1x512 : FVec F S1x512 .f32) broadcasts_S1x512_S1024x512)

/-- The squared length of each row of the linear layer, kept as a column. -/
private def sqs (x0 : Vec F S1024x1024 .f32) (x1 : Vec F S1024x512 .bf16) (x2 : Vec F S1x512 .f32) : FVec F S1024x1 .f32 :=
  shapeCast S1024x1 (multiReduction .add [1] S1024 (mulf (hid x0 x1 x2) (hid x0 x1 x2)) 0x00000000#32
        reduces_S1024x512_S1024 (.inl rfl) rfl : FVec F S1024 .f32) shapeCasts_S1024_S1024x1

/-- The body's payload is the linear layer divided by its row norms floored, spread back over the columns. -/
private theorem pay_eq (x0 : Vec F S1024x1024 .f32) (x1 : Vec F S1024x512 .bf16) (x2 : Vec F S1x512 .f32) :
    k0_pay1 x0 x1 x2 = truncf .bf16 (divf (hid x0 x1 x2) (broadcastTo S1024x512
      (maximumf (sqrt (sqs x0 x1 x2)) (broadcast S1024x1 (Scalar.ofBits .f32 0x2B8CBCCC#32) : FVec F S1024x1 .f32))
      broadcasts_S1024x1_S1024x512)) bitsLt_bf16_f32 := rfl

end Payload

/-! The matmul's operand indices: at output index `i` and contraction index `q` the left operand is read at
    (row of `i`, `q`) and the right at (`q`, column of `i`). -/
private theorem lhs_ax0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
private theorem lhs_ax1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
private theorem rhs_ax0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
private theorem rhs_ax1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The block times the weights at `(p, d)`: the sum over `k` of the block at `(p, k)` times the weights at `(k, d)`. -/
private theorem mm_apply (a : FVec Ideal S1024x1024 .bf16) (w : FVec Ideal S1024x512 .bf16) (p : Fin 1024) (d : Fin 512) :
    matmul dot_S1024x1024_S1024x512_S1024x512_1_0_0_1_n_n none a w (constant (F := Ideal) S1024x512 .f32 0x00000000#32) (ix2 p d)
      = ∑ k : Fin 1024, a (ix2 p k) * w (ix2 k d) := by
  refine (Ideal.matmul_constant_zero_apply dot_S1024x1024_S1024x512_S1024x512_1_0_0_1_n_n none a w (ix2 p d)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p d) ((ValueIdx.contrEquiv1 dot_S1024x1024_S1024x512_S1024x512_1_0_0_1_n_n 1024 rfl rfl).symm k) = ix2 p k := funext fun ax => Fin.ext (by
    match ax with
    | ⟨0, _⟩ => exact lhs_ax0 _ _
    | ⟨1, _⟩ => exact (lhs_ax1 _ _).trans hk)
  have er : dot_S1024x1024_S1024x512_S1024x512_1_0_0_1_n_n.rhsIdx (ix2 p d) ((ValueIdx.contrEquiv1 dot_S1024x1024_S1024x512_S1024x512_1_0_0_1_n_n 1024 rfl rfl).symm k) = ix2 k d := funext fun ax => Fin.ext (by
    match ax with
    | ⟨0, _⟩ => exact (rhs_ax0 _ _).trans hk
    | ⟨1, _⟩ => exact rhs_ax1 _ _)
  rw [el, er]

/-- The linear layer on a block at `(p, d)` is the specification's `lin` of the block, the weights and the bias row. -/
private theorem hid_apply (x0 : Vec Ideal S1024x1024 .f32) (x1 : Vec Ideal S1024x512 .bf16) (x2 : Vec Ideal S1x512 .f32)
    (p : Fin 1024) (d : Fin 512) :
    hid (F := Ideal) x0 x1 x2 (ix2 p d)
      = lin (fun r k => x0 (ix2 r k)) (fun k d => x1 (ix2 k d)) (fun d => x2 (ix2 0 d)) p d := by
  unfold hid lin
  refine congrArg₂ (· + ·) ?_ ?_
  · rw [shapeCast_self]
    exact mm_apply _ _ p d
  · rw [shapeCast_self]
    exact broadcastTo_1b_ab_apply _ _ p d

/-- The kept column of squared lengths at `(p, u)`: the sum over the columns `d` of the squared linear layer at `(p, d)`. -/
private theorem sqs_apply (x0 : Vec Ideal S1024x1024 .f32) (x1 : Vec Ideal S1024x512 .bf16) (x2 : Vec Ideal S1x512 .f32)
    (p : Fin 1024) (u : Fin 1) :
    sqs (F := Ideal) x0 x1 x2 (ix2 p u)
      = ∑ d : Fin 512, hid (F := Ideal) x0 x1 x2 (ix2 p d) * hid (F := Ideal) x0 x1 x2 (ix2 p d) := by
  unfold sqs
  refine (Keepdims.shapeCast_a_a1_apply _ shapeCasts_S1024_S1024x1 p u).trans ?_
  refine (Ideal.multiReduction_add_single (mulf (hid (F := Ideal) x0 x1 x2) (hid (F := Ideal) x0 x1 x2)) 0x00000000#32
    reduces_S1024x512_S1024 (.inl rfl) rfl (ix1 p)).trans ?_
  refine Finset.sum_congr rfl fun k _ => ?_
  rw [Keepdims.lift_row]
  rfl

/-- The body's payload at `(p, d)` is the embedding of row `p` of the block at column `d`: the linear layer there over the
    row's Euclidean norm floored by `eps`. -/
private theorem pay_apply (x0 : Vec Ideal S1024x1024 .f32) (x1 : Vec Ideal S1024x512 .bf16) (x2 : Vec Ideal S1x512 .f32)
    (p : Fin 1024) (d : Fin 512) :
    k0_pay1 (F := Ideal) x0 x1 x2 (ix2 p d)
      = emb (fun r k => x0 (ix2 r k)) (fun k d => x1 (ix2 k d)) (fun d => x2 (ix2 0 d)) p d := by
  rw [pay_eq]
  unfold emb nrm
  show Ideal.div (hid (F := Ideal) x0 x1 x2 (ix2 p d)) (broadcastTo S1024x512 (maximumf (sqrt (sqs (F := Ideal) x0 x1 x2))
    (broadcast S1024x1 (Scalar.ofBits .f32 0x2B8CBCCC#32) : FVec Ideal S1024x1 .f32)) broadcasts_S1024x1_S1024x512 (ix2 p d)) = _
  refine congrArg₂ Ideal.div (hid_apply x0 x1 x2 p d) ?_
  refine (Keepdims.broadcastTo_a1_ab_apply _ broadcasts_S1024x1_S1024x512 p d).trans ?_
  show max (Ideal.sqrt (sqs (F := Ideal) x0 x1 x2 (ix2 p 0))) eps = _
  refine congrArg₂ max (congrArg Ideal.sqrt ?_) rfl
  refine (sqs_apply x0 x1 x2 p 0).trans ?_
  exact Finset.sum_congr rfl fun k _ => by rw [hid_apply]

/-- The embedding of a row reads its input only through that row. -/
private theorem emb_row {n n' : Nat} (X : Fin n → Fin 1024 → EReal) (X' : Fin n' → Fin 1024 → EReal)
    (W : Fin 1024 → Fin 512 → EReal) (b : Fin 512 → EReal) (r : Fin n) (r' : Fin n') (h : X r = X' r') (d : Fin 512) :
    emb X W b r d = emb X' W b r' d := by
  unfold emb nrm lin; rw [h]

/-- The payload of a block whose rows are rows `1024·n + p` of an array `A`, read at `y`, is the embedding of the array's
    row at the index `i` that `y` has in the whole result: row `1024·n + y₀`, column `y₁`. -/
private theorem block_apply (A : S4096x1024.Idx → EReal) (Wt : S1024x512.Idx → EReal) (B : S1x512.Idx → EReal)
    (x0 : Vec Ideal S1024x1024 .f32) (x1 : Vec Ideal S1024x512 .bf16) (x2 : Vec Ideal S1x512 .f32) (n : Nat)
    (h0 : ∀ (p k : Fin 1024) (i : S4096x1024.Idx), (i 0).val = 1024 * n + p.val → (i 1).val = k.val → x0 (ix2 p k) = A i)
    (h1 : ∀ (k : Fin 1024) (d : Fin 512), x1 (ix2 k d) = Wt (ix2 k d))
    (h2 : ∀ d : Fin 512, x2 (ix2 0 d) = B (ix2 0 d))
    (y : S1024x512.Idx) (i : S4096x512.Idx) (hi0 : (i 0).val = 1024 * n + (y 0).val) (hi1 : (i 1).val = (y 1).val) :
    k0_pay1 (F := Ideal) x0 x1 x2 y
      = emb (fun r k => A (ix2 r k)) (fun k d => Wt (ix2 k d)) (fun d => B (ix2 0 d)) (i 0) (i 1) := by
  obtain ⟨p, q, rfl⟩ : ∃ (p : Fin 1024) (q : Fin 512), y = ix2 p q := ⟨y 0, y 1, eq_ix2 y⟩
  rw [pay_apply]
  have e1 : (fun (k : Fin 1024) (d : Fin 512) => x1 (ix2 k d)) = fun k d => Wt (ix2 k d) := funext fun k => funext fun d => h1 k d
  have e2 : (fun d : Fin 512 => x2 (ix2 0 d)) = fun d => B (ix2 0 d) := funext h2
  rw [e1, e2]
  refine (emb_row (fun r k => x0 (ix2 r k)) (fun r k => A (ix2 r k)) _ _ p (i 0) (funext fun k => h0 p k _ hi0 rfl) q).trans ?_
  exact congrArg (emb (fun r k => A (ix2 r k)) (fun k d => Wt (ix2 k d)) (fun d => B (ix2 0 d)) (i 0)) (Fin.ext hi1.symm)

/-! ## From the four blocks to the array -/

section Array
variable (V : (c : Dev nD) → (b : Ref sig .tc) → Buf (Elt Ideal) ((c : Thread nD τ).loc b))

private theorem hz : (![0, 0] : Fin 2 → Nat) = fun _ => 0 := funext fun a => by fin_cases a <;> rfl

/-- The whole result: at `(j, d)` the embedding of row `j` of the support array at column `d`. -/
private def E (c : Dev nD) : S4096x512.Idx → EReal := fun i =>
  emb (fun r k => (V c main_arg0 : S4096x1024.Idx → EReal) (ix2 r k)) (fun k d => (V c main_v0 : S1024x512.Idx → EReal) (ix2 k d))
    (fun d => (V c main_v1 : S1x512.Idx → EReal) (ix2 0 d)) (i 0) (i 1)

/-- The block indices over the four points: the support rows and the result move with the point, 1024 rows a step; the
    weights and the bias stay whole. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The support block at point `t` holds rows `1024·t … 1024·t + 1023` of the support array. -/
private theorem blk0_apply (c : Dev nD) (t : Fin cfg0.N) (p k : Fin 1024) (i : S4096x1024.Idx)
    (hi0 : (i 0).val = 1024 * t.val + p.val) (hi1 : (i 1).val = k.val) :
    (iblk0 V c 0 t : Vec Ideal S1024x1024 .f32) (ix2 p k) = (V c main_arg0 : S4096x1024.Idx → EReal) i := by
  obtain ⟨e00, e01, -⟩ := idx_facts t
  unfold iblk0
  rw [View.read_apply]
  show (V c main_arg0 : S4096x1024.Idx → EReal) _ = (V c main_arg0 : S4096x1024.Idx → EReal) i
  congr 1
  funext a
  apply Fin.ext
  match a with
  | ⟨0, _⟩ => show win0_0.index t 0 * 1024 + 1 * p.val = (i 0).val; rw [e00, hi0]; omega
  | ⟨1, _⟩ => show win0_0.index t 1 * 1024 + 1 * k.val = (i 1).val; rw [e01, hi1]; omega

/-- The weights' block is the whole weights array at every point. -/
private theorem blk1_apply (c : Dev nD) (t : Fin cfg0.N) (k : Fin 1024) (d : Fin 512) :
    (iblk0 V c 1 t : Vec Ideal S1024x512 .bf16) (ix2 k d) = (V c main_v0 : S1024x512.Idx → EReal) (ix2 k d) := by
  obtain ⟨-, -, e10, e11, -⟩ := idx_facts t
  unfold iblk0
  rw [View.read_apply]
  show (V c main_v0 : S1024x512.Idx → EReal) _ = (V c main_v0 : S1024x512.Idx → EReal) (ix2 k d)
  congr 1
  funext a
  apply Fin.ext
  match a with
  | ⟨0, _⟩ => show win0_1.index t 0 * 1024 + 1 * k.val = k.val; rw [e10]; omega
  | ⟨1, _⟩ => show win0_1.index t 1 * 512 + 1 * d.val = d.val; rw [e11]; omega

/-- The bias block is the whole bias row at every point. -/
private theorem blk2_apply (c : Dev nD) (t : Fin cfg0.N) (d : Fin 512) :
    (iblk0 V c 2 t : Vec Ideal S1x512 .f32) (ix2 0 d) = (V c main_v1 : S1x512.Idx → EReal) (ix2 0 d) := by
  obtain ⟨-, -, -, -, e20, e21, -⟩ := idx_facts t
  unfold iblk0
  rw [View.read_apply]
  show (V c main_v1 : S1x512.Idx → EReal) _ = (V c main_v1 : S1x512.Idx → EReal) (ix2 0 d)
  congr 1
  funext a
  apply Fin.ext
  match a with
  | ⟨0, _⟩ => show win0_2.index t 0 * 1 + 1 * 0 = 0; rw [e20]
  | ⟨1, _⟩ => show win0_2.index t 1 * 512 + 1 * d.val = d.val; rw [e21]; omega

/-- What point `t` writes back is block `t` of the whole result. -/
private theorem flushed_eq (c : Dev nD) (t : Fin cfg0.N) :
    (dat0 (F := Ideal) V c).flushed 3 t = ((cfg0.win 3).blk t).view.read (Elt Ideal) (E V c) := by
  show (cfg0.win 3).cut (grid0.coords t) ((dat0 (F := Ideal) V c).after 3 t) = _
  rw [after0_3]
  unfold out0_3
  rw [View.canon_unit_zero hz]
  simp only [View.ld_unit_zero (S := S1024x1024) hz, View.ld_unit_zero (S := S1024x512) hz, View.ld_unit_zero (S := S1x512) hz]
  obtain ⟨-, -, -, -, -, -, e30, e31⟩ := idx_facts t
  funext y
  show k0_pay1 (F := Ideal) (iblk0 V c 0 t) (iblk0 V c 1 t) (iblk0 V c 2 t) y = E V c (((cfg0.win 3).blk t).view.emb y)
  unfold E
  refine block_apply (V c main_arg0) (V c main_v0) (V c main_v1) (iblk0 V c 0 t) (iblk0 V c 1 t) (iblk0 V c 2 t) t.val
    (blk0_apply V c t) (blk1_apply V c t) (blk2_apply V c t) y (((cfg0.win 3).blk t).view.emb y) ?_ ?_
  · show win0_3.index t 0 * 1024 + 1 * (y 0).val = 1024 * t.val + (y 0).val
    rw [e30]; omega
  · show win0_3.index t 1 * 512 + 1 * (y 1).val = (y 1).val
    rw [e31]; omega

/-- An index of the result is in point `t`'s block iff each coordinate is in the block's range on its axis. -/
private theorem mem_blk (t : Fin cfg0.N) (i : S4096x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v7).slice (win0_3.rect t)).set ↔ _
  rw [View.set_slice_whole, Rect.mem_set_unit]
  exact Iff.rfl

/-- Row `r` of the result is written by point `r / 1024`. -/
private theorem cover (i : S4096x512.Idx) :
    ∃ t : Fin cfg0.N, (cfg0.win 3).flush t = true ∧ i ∈ ((cfg0.win 3).blk t).view.set := by
  have hi0 : (i 0).val < 4096 := idx2_lt0 i
  have hi1 : (i 1).val < 512 := idx2_lt1 i
  have hN : grid0.N = 4 := N_0
  have ht : (i 0).val / 1024 < grid0.N := by rw [hN]; omega
  obtain ⟨-, -, -, -, -, -, e30, e31⟩ := idx_facts ⟨(i 0).val / 1024, ht⟩
  have e30' : win0_3.index ⟨(i 0).val / 1024, ht⟩ (0 : Fin 2) = (i 0).val / 1024 := e30
  refine ⟨⟨(i 0).val / 1024, ht⟩, flush0_3 _, ?_⟩
  rw [mem_blk]
  intro a
  match a with
  | ⟨0, _⟩ => show win0_3.index ⟨(i 0).val / 1024, ht⟩ (0 : Fin 2) * 1024 ≤ (i 0).val ∧ (i 0).val < win0_3.index ⟨(i 0).val / 1024, ht⟩ (0 : Fin 2) * 1024 + 1024; rw [e30']; omega
  | ⟨1, _⟩ => show win0_3.index ⟨(i 0).val / 1024, ht⟩ (1 : Fin 2) * 512 ≤ (i 1).val ∧ (i 1).val < win0_3.index ⟨(i 0).val / 1024, ht⟩ (1 : Fin 2) * 512 + 512; rw [e31]; omega

/-- After the first region its output array holds, at row `j` and column `d`, the embedding of support row `j`. -/
theorem arr0 (c : Dev nD) (idx : S4096x512.Idx) :
    ((dat0 (F := Ideal) V c).arrAt 3 cfg0.N : S4096x512.Idx → EReal) idx
      = emb (fun r k => (V c main_arg0 : S4096x1024.Idx → EReal) (ix2 r k)) (fun k d => (V c main_v0 : S1024x512.Idx → EReal) (ix2 k d))
          (fun d => (V c main_v1 : S1x512.Idx → EReal) (ix2 0 d)) (idx 0) (idx 1) :=
  congrFun ((dat0 (F := Ideal) V c).arrAt_eq_of_cover 3 (E V c) (fun t _ => flushed_eq V c t) (cover)) idx

end Array

end Cert.Matching.Ker

end
-- ==== Proof.Region1Pay.lean ====
import proofs.«427850_j67095979098677_3_alg».proof.Proof.Gen.KernelIdeal.Skeleton
import proofs.«427850_j67095979098677_3_alg».proof.Proof.Spec
import proofs.«427850_j67095979098677_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.ValueIdx
open Cert.KernelIdeal Cert.KernelIdeal.Gen Cert.Matching

namespace Cert.Matching.Ker

/-! ### The linear layer's product: a `[512, 1024]` block times the `[1024, 512]` weights -/

private theorem lhs_mmLin_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
private theorem lhs_mmLin_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
private theorem rhs_mmLin_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
private theorem rhs_mmLin_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product into the zero accumulator, read at `(r, c)`: the sum over the contracted coordinate. -/
private theorem mmLin_apply (x : FVec Ideal S512x1024 .bf16) (y : FVec Ideal S1024x512 .bf16) (r : Fin 512) (c : Fin 512) :
    matmul dot_S512x1024_S1024x512_S512x512_1_0_0_1_n_n none x y (constant (F := Ideal) S512x512 .f32 0x00000000#32) (ix2 r c)
      = ∑ k : Fin 1024, x (ix2 r k) * y (ix2 k c) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r c) ((contrEquiv1 dot_S512x1024_S1024x512_S512x512_1_0_0_1_n_n 1024 rfl rfl).symm k) = ix2 r k := funext fun a => Fin.ext (by
    match a with
    | ⟨0, _⟩ => exact lhs_mmLin_0 _ _
    | ⟨1, _⟩ => exact (lhs_mmLin_1 _ _).trans hk)
  have er : dot_S512x1024_S1024x512_S512x512_1_0_0_1_n_n.rhsIdx (ix2 r c) ((contrEquiv1 dot_S512x1024_S1024x512_S512x512_1_0_0_1_n_n 1024 rfl rfl).symm k) = ix2 k c := funext fun a => Fin.ext (by
    match a with
    | ⟨0, _⟩ => exact (rhs_mmLin_0 _ _).trans hk
    | ⟨1, _⟩ => exact rhs_mmLin_1 _ _)
  rw [el, er]

/-! ### The scores' product: the `[512, 512]` embedded queries times the `[512, 1024]` transposed chunk -/

private theorem lhs_mmScore_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
private theorem lhs_mmScore_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
private theorem rhs_mmScore_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
private theorem rhs_mmScore_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The product into the zero accumulator, read at `(r, c)`: the sum over the contracted coordinate. -/
private theorem mmScore_apply (x : FVec Ideal S512x512 .bf16) (y : FVec Ideal S512x1024 .bf16) (r : Fin 512) (c : Fin 1024) :
    matmul dot_S512x512_S512x1024_S512x1024_1_0_0_1_n_n none x y (constant (F := Ideal) S512x1024 .f32 0x00000000#32) (ix2 r c)
      = ∑ k : Fin 512, x (ix2 r k) * y (ix2 k c) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r c) ((contrEquiv1 dot_S512x512_S512x1024_S512x1024_1_0_0_1_n_n 512 rfl rfl).symm k) = ix2 r k := funext fun a => Fin.ext (by
    match a with
    | ⟨0, _⟩ => exact lhs_mmScore_0 _ _
    | ⟨1, _⟩ => exact (lhs_mmScore_1 _ _).trans hk)
  have er : dot_S512x512_S512x1024_S512x1024_1_0_0_1_n_n.rhsIdx (ix2 r c) ((contrEquiv1 dot_S512x512_S512x1024_S512x1024_1_0_0_1_n_n 512 rfl rfl).symm k) = ix2 k c := funext fun a => Fin.ext (by
    match a with
    | ⟨0, _⟩ => exact (rhs_mmScore_0 _ _).trans hk
    | ⟨1, _⟩ => exact rhs_mmScore_1 _ _)
  rw [el, er]

/-! ### The aggregate's product: the `[512, 1024]` weights of a chunk times its `[1024, 128]` table -/

private theorem lhs_mmAgg_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
private theorem lhs_mmAgg_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
private theorem rhs_mmAgg_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
private theorem rhs_mmAgg_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The product into the zero accumulator, read at `(r, c)`: the sum over the contracted coordinate. -/
private theorem mmAgg_apply (x : FVec Ideal S512x1024 .bf16) (y : FVec Ideal S1024x128 .bf16) (r : Fin 512) (c : Fin 128) :
    matmul dot_S512x1024_S1024x128_S512x128_1_0_0_1_n_n none x y (constant (F := Ideal) S512x128 .f32 0x00000000#32) (ix2 r c)
      = ∑ k : Fin 1024, x (ix2 r k) * y (ix2 k c) := by
  simp only [matmul]
  rw [Ideal.matmul_constant_zero_apply, ← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 r c) ((contrEquiv1 dot_S512x1024_S1024x128_S512x128_1_0_0_1_n_n 1024 rfl rfl).symm k) = ix2 r k := funext fun a => Fin.ext (by
    match a with
    | ⟨0, _⟩ => exact lhs_mmAgg_0 _ _
    | ⟨1, _⟩ => exact (lhs_mmAgg_1 _ _).trans hk)
  have er : dot_S512x1024_S1024x128_S512x128_1_0_0_1_n_n.rhsIdx (ix2 r c) ((contrEquiv1 dot_S512x1024_S1024x128_S512x128_1_0_0_1_n_n 1024 rfl rfl).symm k) = ix2 k c := funext fun a => Fin.ext (by
    match a with
    | ⟨0, _⟩ => exact (rhs_mmAgg_0 _ _).trans hk
    | ⟨1, _⟩ => exact rhs_mmAgg_1 _ _)
  rw [el, er]

/-! ### The encoder's row -/

/-- A lane sum of a `[512, 512]` matrix, read at row `r`: the sum over the row's entries. -/
private theorem rowSum_apply (x : FVec Ideal S512x512 .f32) (r : Fin 512) :
    multiReduction (F := Ideal) .add [1] S512 x 0x00000000#32 reduces_S512x512_S512 (.inl rfl) rfl (ix1 r)
      = ∑ d : Fin 512, x (ix2 r d) := by
  refine (Ideal.multiReduction_add_single x 0x00000000#32 reduces_S512x512_S512 (.inl rfl) rfl (ix1 r)).trans ?_
  exact Finset.sum_congr rfl fun k _ => congrArg x (Keepdims.lift_row reduces_S512x512_S512 r k)

/-- The linear layer of the kernel, as a vector: the block times the weights, plus the bias row spread over the rows. -/
private def linV (v0 : FVec Ideal S512x1024 .f32) (v2 : FVec Ideal S1024x512 .bf16) (v5 : FVec Ideal S1x512 .f32) : FVec Ideal S512x512 .f32 :=
  addf (matmul dot_S512x1024_S1024x512_S512x512_1_0_0_1_n_n none (truncf .bf16 v0 bitsLt_bf16_f32)
      (shapeCast S1024x512 v2 shapeCasts_S1024x512_S1024x512) (constant (F := Ideal) S512x512 .f32 0x00000000#32))
    (broadcastTo S512x512 (shapeCast S1x512 v5 shapeCasts_S1x512_S1x512) broadcasts_S1x512_S512x512)

/-- Read at `(r, d)` it is the specification's linear layer. -/
private theorem linV_apply (v0 : FVec Ideal S512x1024 .f32) (v2 : FVec Ideal S1024x512 .bf16) (v5 : FVec Ideal S1x512 .f32) (r d : Fin 512) :
    linV v0 v2 v5 (ix2 r d)
      = lin (fun r k => (v0 : S512x1024.Idx → EReal) (ix2 r k)) (fun k d => (v2 : S1024x512.Idx → EReal) (ix2 k d))
          (fun d => (v5 : S1x512.Idx → EReal) (ix2 0 d)) r d := by
  unfold linV lin
  refine congrArg₂ (· + ·) ?_ ?_
  · refine (mmLin_apply _ _ r d).trans ?_
    rw [shapeCast_self]
    rfl
  · refine (broadcastTo_1b_ab_apply _ broadcasts_S1x512_S512x512 r d).trans ?_
    rw [shapeCast_self]

/-- The divisor of the kernel, as a vector over the matrix: the lane sum of the squares, kept as a column, its root,
    floored, spread back over the columns. Read at `(r, d)` it is the floored norm of row `r`. -/
private theorem nrmV_apply (x : FVec Ideal S512x512 .f32) (r d : Fin 512) :
    broadcastTo S512x512
        (maximumf (sqrt (shapeCast S512x1 (multiReduction (F := Ideal) .add [1] S512 (mulf x x) 0x00000000#32 reduces_S512x512_S512 (.inl rfl) rfl)
            shapeCasts_S512_S512x1))
          (broadcast S512x1 (Scalar.ofBits (F := Ideal) .f32 0x2B8CBCCC#32)))
        broadcasts_S512x1_S512x512 (ix2 r d)
      = max (Ideal.sqrt (∑ d' : Fin 512, x (ix2 r d') * x (ix2 r d'))) eps := by
  refine (Keepdims.broadcastTo_a1_ab_apply _ broadcasts_S512x1_S512x512 r d).trans ?_
  show max (Ideal.sqrt (shapeCast S512x1 (multiReduction (F := Ideal) .add [1] S512 (mulf x x) 0x00000000#32 reduces_S512x512_S512 (.inl rfl) rfl)
      shapeCasts_S512_S512x1 (ix2 r (0 : Fin 1)))) eps = _
  rw [Keepdims.shapeCast_a_a1_apply, rowSum_apply]
  rfl

/-- The embedded query block of the kernel, read at `(r, d)`: the specification's embedding of row `r`. -/
private theorem encV_apply (v0 : FVec Ideal S512x1024 .f32) (v2 : FVec Ideal S1024x512 .bf16) (v5 : FVec Ideal S1x512 .f32) (r d : Fin 512) :
    divf (linV v0 v2 v5)
        (broadcastTo S512x512
          (maximumf (sqrt (shapeCast S512x1 (multiReduction (F := Ideal) .add [1] S512 (mulf (linV v0 v2 v5) (linV v0 v2 v5)) 0x00000000#32
              reduces_S512x512_S512 (.inl rfl) rfl) shapeCasts_S512_S512x1))
            (broadcast S512x1 (Scalar.ofBits (F := Ideal) .f32 0x2B8CBCCC#32)))
          broadcasts_S512x1_S512x512) (ix2 r d)
      = emb (fun r k => (v0 : S512x1024.Idx → EReal) (ix2 r k)) (fun k d => (v2 : S1024x512.Idx → EReal) (ix2 k d))
          (fun d => (v5 : S1x512.Idx → EReal) (ix2 0 d)) r d := by
  unfold emb nrm
  refine congrArg₂ Ideal.div (linV_apply v0 v2 v5 r d) ?_
  refine (nrmV_apply (linV v0 v2 v5) r d).trans ?_
  refine congrArg (fun s => max (Ideal.sqrt s) eps) (Finset.sum_congr rfl fun d' _ => ?_)
  rw [linV_apply]

/-- The accumulator starts at zero. -/
theorem pay1_apply (i : S512x128.Idx) : (k1_pay1 (F := Ideal) : S512x128.Idx → EReal) i = 0 := by
  show Ideal.ofBits .f32 0x00000000#32 = 0
  exact Ideal.ofBits_zero_f32

/-- One chunk of 1024 support rows: entry `(p, q)` of the accumulator grows by the sum over the chunk's rows `j'` of
    `exp (score of query row p against row j' − 1)` times the table's entry `(j', q)`, the query row embedded from
    the block `v0` by the linear layer `v2`, `v5`. -/
theorem pay2_apply (v0 : Vec Ideal S512x1024 .f32) (v2 : Vec Ideal S1024x512 .bf16) (v5 : Vec Ideal S1x512 .f32)
    (acc : FVec Ideal S512x128 .f32) (v28 : Vec Ideal S1024x512 .bf16) (v31 : Vec Ideal S1024x128 .bf16) (p : Fin 512) (q : Fin 128) :
    (k1_pay2 (F := Ideal) v0 v2 v5 acc v28 v31 : S512x128.Idx → EReal) (ix2 p q)
      = (acc : S512x128.Idx → EReal) (ix2 p q)
        + ∑ j' : Fin 1024, Ideal.exp (score (emb (fun r k => (v0 : S512x1024.Idx → EReal) (ix2 r k)) (fun k d => (v2 : S1024x512.Idx → EReal) (ix2 k d))
                                               (fun d => (v5 : S1x512.Idx → EReal) (ix2 0 d)))
                                          (fun j d => (v28 : S1024x512.Idx → EReal) (ix2 j d)) p j' - one)
            * (v31 : S1024x128.Idx → EReal) (ix2 j' q) := by
  unfold k1_pay2
  refine congrArg (acc (ix2 p q) + ·) ?_
  refine (mmAgg_apply _ _ p q).trans ?_
  refine Finset.sum_congr rfl fun j' _ => ?_
  refine congrArg₂ (· * ·) ?_ (congrFun (shapeCast_self v31 shapeCasts_S1024x128_S1024x128) (ix2 j' q))
  refine congrArg (fun s => Ideal.exp (s - one)) ?_
  refine (mmScore_apply _ _ p j').trans ?_
  unfold score
  refine Finset.sum_congr rfl fun d _ => ?_
  refine congrArg₂ (· * ·) (encV_apply v0 v2 v5 p d) ?_
  refine (transpose_ix2_apply _ transposes_S1024x512_p1_0_S512x1024 d j').trans ?_
  exact congrFun (shapeCast_self v28 shapeCasts_S1024x512_S1024x512) (ix2 j' d)

/-- The last step: every entry of a row is divided by the row's entry in column 64. -/
theorem pay3_apply (v20 : FVec Ideal S512x128 .f32) (p : Fin 512) (q : Fin 128) :
    (k1_pay3 (F := Ideal) v20 : S512x128.Idx → EReal) (ix2 p q)
      = Ideal.div ((v20 : S512x128.Idx → EReal) (ix2 p q)) ((v20 : S512x128.Idx → EReal) (ix2 p 64)) := by
  unfold k1_pay3
  refine congrArg (Ideal.div (v20 (ix2 p q))) ?_
  refine (Keepdims.broadcastTo_a1_ab_apply _ broadcasts_S512x1_S512x128 p q).trans ?_
  exact slice2_axis1_apply 64 v20 slices_S512x128_o0_64_S512x1 p (0 : Fin 1) (64 : Fin 128) rfl

end Cert.Matching.Ker

end
-- ==== Proof.Region1.lean ====
import proofs.«427850_j67095979098677_3_alg».proof.Proof.Gen.KernelIdeal.Frame
import proofs.«427850_j67095979098677_3_alg».proof.Proof.Spec
import proofs.«427850_j67095979098677_3_alg».proof.Proof.Region1Pay
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.ValueIdx Idealize.ShloMosaic.TcCoe Idealize.SL.Sem
open Cert.KernelIdeal Cert.KernelIdeal.Gen Cert.Matching

namespace Cert.Matching.Ker

variable (V : (c : Dev nD) → (b : Ref sig .tc) → Buf (Elt Ideal) ((c : Thread nD τ).loc b))

/-! ## The body's one store and the loop's trip, at any float type -/

section Generic
variable {F : FTy → Type} [FloatOps F]

private theorem hz : (![0, 0] : Fin 2 → Nat) = fun _ => 0 := funext fun a => by fin_cases a <;> rfl

/-- What one point's body leaves in the output block: the last step applied to the accumulator after the loop's trips,
    the accumulator started at the zero block, each trip reading the two staged arrays whole. -/
private theorem out1_eq (c : Dev nD) (i : grid1.Coords) (arg1 : Memref sig .tc .vmem S512x1024 .f32) (harg1 : arg1.IsWhole) (arg2 : Memref sig .tc .vmem S1024x512 .bf16) (harg2 : arg2.IsWhole) (arg3 : Memref sig .tc .vmem S1x512 .f32) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S512x128 .f32) (harg6 : arg6.IsWhole)
    (x0 : Vec F S512x1024 .f32) (x1 : Vec F S1024x512 .bf16) (x2 : Vec F S1x512 .f32) (x3 : Vec F S4096x512 .bf16) (x4 : Vec F S4096x128 .bf16) :
    out1_A_5 c i arg1 harg1 arg2 harg2 arg3 harg3 arg4 harg4 arg5 harg5 arg6 harg6 x0 x1 x2 x3 x4
      = k1_pay3 (st_k1_t1 (F := F) Variants.none c none i arg1 harg1 arg2 harg2 arg3 harg3 arg4 harg4 arg5 harg5 arg6 harg6 x0 x1 x2
          (harg4.unread x3) (harg5.unread x4) (k1_pay1 (F := F)) k1_t1_loop.trips) := by
  unfold out1_A_5
  rw [View.read_writes_eq_canon _ _ _ (cover1_A_5 c i arg1 harg1 arg2 harg2 arg3 harg3 arg4 harg4 arg5 harg5 arg6 harg6 x0 x1 x2 x3 x4)]
  unfold kernelRun1_A
  dsimp only
  sl_unfold_words
  rw [View.canon_unit_zero hz]
  simp only [View.readAt_eq_ld, harg1.read_unread, harg2.read_unread, harg3.read_unread, View.ld_unit_zero (S := S512x1024) hz, View.ld_unit_zero (S := S1024x512) hz, View.ld_unit_zero (S := S1x512) hz]

/-- One trip of the loop: the accumulator's update on the trip's two loads, each a rectangle of 1024 rows of its staged array. -/
private theorem trip_eq (c : Dev nD) (i : grid1.Coords) (arg1 : Memref sig .tc .vmem S512x1024 .f32) (harg1 : arg1.IsWhole) (arg2 : Memref sig .tc .vmem S1024x512 .bf16) (harg2 : arg2.IsWhole) (arg3 : Memref sig .tc .vmem S1x512 .f32) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S512x128 .f32) (harg6 : arg6.IsWhole)
    (v0 : Vec F S512x1024 .f32) (v2 : Vec F S1024x512 .bf16) (v5 : Vec F S1x512 .f32) (X4 : BufTy.Contents (Elt F) arg4.view.ty) (X5 : BufTy.Contents (Elt F) arg5.view.ty) (k : Fin k1_t1_loop.trips) (acc : FVec F S512x128 .f32) :
    tripR_k1_t1 (F := F) Variants.none c none i arg1 harg1 arg2 harg2 arg3 harg3 arg4 harg4 arg5 harg5 arg6 harg6 v0 v2 v5 X4 X5 k acc
      = k1_pay2 v0 v2 v5 acc (View.readAt (Elt F) arg4.view (Rect.unit (s := S4096x512) (k1_off1 k) S1024x512.size (k1_off1_inb k)).toLoadRect X4)
          (View.readAt (Elt F) arg5.view (Rect.unit (s := S4096x128) (k1_off2 k) S1024x128.size (k1_off2_inb k)).toLoadRect X5) := by
  unfold tripR_k1_t1 trip_k1_t1
  rfl

end Generic

/-! ## Sums over the four chunks of 1024 rows -/

/-- Row `j'` of chunk `k` of an array of 4096 rows. -/
private abbrev crow (k : ℕ) (hk : k < 4) (j' : Fin 1024) : Fin 4096 := ⟨1024 * k + j'.val, by have := j'.isLt; omega⟩

/-- A sum over 4096 rows is the sum, over the four chunks, of the sums over each chunk's 1024 rows. -/
private theorem sum_chunks (f : Fin 4096 → EReal) :
    ∑ j : Fin 4096, f j = ∑ k : Fin 4, ∑ j' : Fin 1024, f (crow k.val k.isLt j') := by
  calc ∑ j : Fin 4096, f j = ∑ x : Fin 4 × Fin 1024, f (finProdFinEquiv x) := (Equiv.sum_comp (finProdFinEquiv : Fin 4 × Fin 1024 ≃ Fin 4096) f).symm
    _ = ∑ k : Fin 4, ∑ j' : Fin 1024, f (finProdFinEquiv (k, j')) := Fintype.sum_prod_type _
    _ = _ := by
      refine Finset.sum_congr rfl fun k _ => Finset.sum_congr rfl fun j' _ => congrArg f (Fin.ext ?_)
      show j'.val + 1024 * k.val = 1024 * k.val + j'.val
      omega

/-- The embedding of a row depends on that row of the input only. -/
private theorem emb_row {n n' : Nat} (X : Fin n → Fin 1024 → EReal) (X' : Fin n' → Fin 1024 → EReal) (W : Fin 1024 → Fin 512 → EReal) (b : Fin 512 → EReal)
    (r : Fin n) (r' : Fin n') (h : ∀ k, X r k = X' r' k) (d : Fin 512) : emb X W b r d = emb X' W b r' d := by
  have hl : ∀ d, lin X W b r d = lin X' W b r' d := fun d => by unfold lin; simp only [h]
  unfold emb nrm
  simp only [hl]

/-! ## One point's block, at the ideal reading -/

section Block
variable (x0 : Vec Ideal S512x1024 .f32) (x1 : Vec Ideal S1024x512 .bf16) (x2 : Vec Ideal S1x512 .f32)
  (x3 : Vec Ideal S4096x512 .bf16) (x4 : Vec Ideal S4096x128 .bf16)

/-- The embedding of the point's block of query rows. -/
private abbrev qe : Fin 512 → Fin 512 → EReal :=
  emb (fun r k => (x0 : S512x1024.Idx → EReal) (ix2 r k)) (fun k d => (x1 : S1024x512.Idx → EReal) (ix2 k d)) (fun d => (x2 : S1x512.Idx → EReal) (ix2 0 d))

/-- The summand of the kernel's row formula: support row `j`'s weight against query row `p`, times the table's entry `(j, q)`. -/
private abbrev term (p : Fin 512) (q : Fin 128) (j : Fin 4096) : EReal :=
  Ideal.exp (score (qe x0 x1 x2) (fun j d => (x3 : S4096x512.Idx → EReal) (ix2 j d)) p j - one) * (x4 : S4096x128.Idx → EReal) (ix2 j q)

/-- Trip `k`'s load of the embedded support reads rows `1024·k …` of it. -/
private theorem ld_rows512 (k : Fin k1_t1_loop.trips) (hk : k.val < 4) (j : Fin 1024) (d : Fin 512) :
    (View.ld x3 (Rect.unit (s := S4096x512) (k1_off1 k) S1024x512.size (k1_off1_inb k)) : S1024x512.Idx → EReal) (ix2 j d)
      = (x3 : S4096x512.Idx → EReal) (ix2 (crow k.val hk j) d) := by
  show (x3 : S4096x512.Idx → EReal) _ = _
  congr 1
  funext a
  apply Fin.ext
  match a with
  | ⟨0, _⟩ => show k1_off1 k 0 + 1 * j.val = 1024 * k.val + j.val; rw [k1_off1_eq]; simp
  | ⟨1, _⟩ => show k1_off1 k 1 + 1 * d.val = d.val; rw [k1_off1_eq]; simp

/-- Trip `k`'s load of the table reads rows `1024·k …` of it. -/
private theorem ld_rows128 (k : Fin k1_t1_loop.trips) (hk : k.val < 4) (j : Fin 1024) (q : Fin 128) :
    (View.ld x4 (Rect.unit (s := S4096x128) (k1_off2 k) S1024x128.size (k1_off2_inb k)) : S1024x128.Idx → EReal) (ix2 j q)
      = (x4 : S4096x128.Idx → EReal) (ix2 (crow k.val hk j) q) := by
  show (x4 : S4096x128.Idx → EReal) _ = _
  congr 1
  funext a
  apply Fin.ext
  match a with
  | ⟨0, _⟩ => show k1_off2 k 0 + 1 * j.val = 1024 * k.val + j.val; rw [k1_off2_eq]; simp
  | ⟨1, _⟩ => show k1_off2 k 1 + 1 * q.val = q.val; rw [k1_off2_eq]; simp

/-- One trip at an entry: the accumulator grows by chunk `k`'s share of the row formula's sum. -/
private theorem trip_apply (acc : FVec Ideal S512x128 .f32) (k : Fin k1_t1_loop.trips) (hk : k.val < 4) (p : Fin 512) (q : Fin 128) :
    (k1_pay2 (F := Ideal) x0 x1 x2 acc (View.ld x3 (Rect.unit (s := S4096x512) (k1_off1 k) S1024x512.size (k1_off1_inb k)))
        (View.ld x4 (Rect.unit (s := S4096x128) (k1_off2 k) S1024x128.size (k1_off2_inb k))) : S512x128.Idx → EReal) (ix2 p q)
      = (acc : S512x128.Idx → EReal) (ix2 p q) + ∑ j' : Fin 1024, term x0 x1 x2 x3 x4 p q (crow k.val hk j') := by
  refine (pay2_apply x0 x1 x2 acc _ _ p q).trans ?_
  congr 1
  refine Finset.sum_congr rfl fun j' _ => ?_
  simp only [score, ld_rows512 x3 k hk, ld_rows128 x4 k hk]
  rfl

/-- Chunk `k`'s share of the row formula's sum (zero past the fourth chunk). -/
private def share (p : Fin 512) (q : Fin 128) (k : ℕ) : EReal :=
  if hk : k < 4 then ∑ j' : Fin 1024, term x0 x1 x2 x3 x4 p q (crow k hk j') else 0

/-- The accumulator before trip `n`: the shares of the chunks before it. -/
private theorem st_apply (c : Dev nD) (i : grid1.Coords) (arg1 : Memref sig .tc .vmem S512x1024 .f32) (harg1 : arg1.IsWhole) (arg2 : Memref sig .tc .vmem S1024x512 .bf16) (harg2 : arg2.IsWhole) (arg3 : Memref sig .tc .vmem S1x512 .f32) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S512x128 .f32) (harg6 : arg6.IsWhole) :
    ∀ (n : ℕ), n ≤ k1_t1_loop.trips → ∀ (p : Fin 512) (q : Fin 128),
      (st_k1_t1 (F := Ideal) Variants.none c none i arg1 harg1 arg2 harg2 arg3 harg3 arg4 harg4 arg5 harg5 arg6 harg6 x0 x1 x2
          (harg4.unread x3) (harg5.unread x4) (k1_pay1 (F := Ideal)) n : S512x128.Idx → EReal) (ix2 p q)
        = ∑ k ∈ Finset.range n, share x0 x1 x2 x3 x4 p q k
  | 0, _, p, q => by
    rw [Finset.range_zero, Finset.sum_empty]
    exact pay1_apply (ix2 p q)
  | n + 1, hn, p, q => by
    have h : n < k1_t1_loop.trips := hn
    have h4 : n < 4 := Nat.lt_of_lt_of_le h k1_t1_abs.2.1
    have ih := st_apply c i arg1 harg1 arg2 harg2 arg3 harg3 arg4 harg4 arg5 harg5 arg6 harg6 n (Nat.le_of_lt h) p q
    rw [Finset.sum_range_succ, ← ih]
    refine (congrFun (st_k1_t1_succ (F := Ideal) Variants.none c none i arg1 harg1 arg2 harg2 arg3 harg3 arg4 harg4 arg5 harg5 arg6 harg6 x0 x1 x2
      (harg4.unread x3) (harg5.unread x4) (k1_pay1 (F := Ideal)) ⟨n, h⟩) (ix2 p q)).trans ?_
    rw [trip_eq]
    simp only [View.readAt_eq_ld, harg4.read_unread, harg5.read_unread]
    refine (trip_apply x0 x1 x2 x3 x4 _ ⟨n, h⟩ h4 p q).trans ?_
    unfold share
    rw [dif_pos h4]

/-- THE BLOCK: what one point's body leaves at entry `y` of its output block is the kernel's row formula on the scores of the
    block's query row `y 0` against all 4096 rows of the staged support, at column `y 1` of the staged table. -/
private theorem block_apply (c : Dev nD) (i : grid1.Coords) (arg1 : Memref sig .tc .vmem S512x1024 .f32) (harg1 : arg1.IsWhole) (arg2 : Memref sig .tc .vmem S1024x512 .bf16) (harg2 : arg2.IsWhole) (arg3 : Memref sig .tc .vmem S1x512 .f32) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S512x128 .f32) (harg6 : arg6.IsWhole) (y : S512x128.Idx) :
    (out1_A_5 (F := Ideal) c i arg1 harg1 arg2 harg2 arg3 harg3 arg4 harg4 arg5 harg5 arg6 harg6 x0 x1 x2 x3 x4 : S512x128.Idx → EReal) y
      = aggRow (score (qe x0 x1 x2) (fun j d => (x3 : S4096x512.Idx → EReal) (ix2 j d)) (y 0))
          (fun j c' => (x4 : S4096x128.Idx → EReal) (ix2 j c')) (y 1) := by
  obtain ⟨p, q, rfl⟩ : ∃ p q, y = ix2 p q := ⟨y 0, y 1, eq_ix2 y⟩
  have h4 : k1_t1_loop.trips = 4 := by decide
  have hsum : ∀ q' : Fin 128,
      (st_k1_t1 (F := Ideal) Variants.none c none i arg1 harg1 arg2 harg2 arg3 harg3 arg4 harg4 arg5 harg5 arg6 harg6 x0 x1 x2
          (harg4.unread x3) (harg5.unread x4) (k1_pay1 (F := Ideal)) k1_t1_loop.trips : S512x128.Idx → EReal) (ix2 p q')
        = ∑ j : Fin 4096, term x0 x1 x2 x3 x4 p q' j := by
    intro q'
    rw [st_apply x0 x1 x2 x3 x4 c i arg1 harg1 arg2 harg2 arg3 harg3 arg4 harg4 arg5 harg5 arg6 harg6 k1_t1_loop.trips le_rfl p q', h4, Finset.sum_range, sum_chunks]
    refine Finset.sum_congr rfl fun k _ => ?_
    unfold share
    rw [dif_pos k.isLt]
  rw [out1_eq]
  refine (pay3_apply _ p q).trans ?_
  rw [hsum q, hsum 64]
  rfl

end Block

/-! ## From the points' blocks to the array -/

/-- The printed index maps, decided over the 16 points: the query window and the output window move with the point along the
    rows, every other window stays at block (0, 0). -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The query window's block at point `t` is rows `512·t …` of the query array. -/
private theorem blk0_apply (c : Dev nD) (t : Fin cfg1.N) (r : Fin 512) (k : Fin 1024) (R : Fin 8192) (hR : R.val = 512 * t.val + r.val) :
    (iblk1 V c 0 t : Vec Ideal S512x1024 .f32) (ix2 r k) = (V c main_arg1 : S8192x1024.Idx → EReal) (ix2 R k) := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 512 + 1 * r.val = R.val; rw [e0, hR]; omega
  | ⟨1, _⟩ => show win1_0.index t 1 * 1024 + 1 * k.val = k.val; rw [e1]; omega

/-- The weight window's block is the whole weight array, at every point. -/
private theorem blk1_apply (c : Dev nD) (t : Fin cfg1.N) (k : Fin 1024) (d : Fin 512) :
    (iblk1 V c 1 t : Vec Ideal S1024x512 .bf16) (ix2 k d) = (V c main_v0 : S1024x512.Idx → EReal) (ix2 k d) := by
  obtain ⟨-, -, e0, e1, -⟩ := idx_facts t
  unfold iblk1
  rw [View.read_apply]
  show V c main_v0 _ = V c main_v0 _
  congr 1
  funext a
  apply Fin.ext
  match a with
  | ⟨0, _⟩ => show win1_1.index t 0 * 1024 + 1 * k.val = k.val; rw [e0]; omega
  | ⟨1, _⟩ => show win1_1.index t 1 * 512 + 1 * d.val = d.val; rw [e1]; omega

/-- The bias window's block is the whole bias row, at every point. -/
private theorem blk2_apply (c : Dev nD) (t : Fin cfg1.N) (d : Fin 512) :
    (iblk1 V c 2 t : Vec Ideal S1x512 .f32) (ix2 0 d) = (V c main_v1 : S1x512.Idx → EReal) (ix2 0 d) := by
  obtain ⟨-, -, -, -, e0, e1, -⟩ := idx_facts t
  unfold iblk1
  rw [View.read_apply]
  show V c main_v1 _ = V c main_v1 _
  congr 1
  funext a
  apply Fin.ext
  match a with
  | ⟨0, _⟩ => show win1_2.index t 0 * 1 + 1 * 0 = 0; rw [e0]
  | ⟨1, _⟩ => show win1_2.index t 1 * 512 + 1 * d.val = d.val; rw [e1]; omega

/-- The embedded-support window's block is the whole array, at every point. -/
private theorem blk3_apply (c : Dev nD) (t : Fin cfg1.N) (j : Fin 4096) (d : Fin 512) :
    (iblk1 V c 3 t : Vec Ideal S4096x512 .bf16) (ix2 j d) = (V c main_v7 : S4096x512.Idx → EReal) (ix2 j d) := by
  obtain ⟨-, -, -, -, -, -, e0, e1, -⟩ := idx_facts t
  unfold iblk1
  rw [View.read_apply]
  show V c main_v7 _ = V c main_v7 _
  congr 1
  funext a
  apply Fin.ext
  match a with
  | ⟨0, _⟩ => show win1_3.index t 0 * 4096 + 1 * j.val = j.val; rw [e0]; omega
  | ⟨1, _⟩ => show win1_3.index t 1 * 512 + 1 * d.val = d.val; rw [e1]; omega

/-- The table window's block is the whole table, at every point. -/
private theorem blk4_apply (c : Dev nD) (t : Fin cfg1.N) (j : Fin 4096) (q : Fin 128) :
    (iblk1 V c 4 t : Vec Ideal S4096x128 .bf16) (ix2 j q) = (V c main_v6 : S4096x128.Idx → EReal) (ix2 j q) := by
  obtain ⟨-, -, -, -, -, -, -, -, e0, e1, -⟩ := idx_facts t
  unfold iblk1
  rw [View.read_apply]
  show V c main_v6 _ = V c main_v6 _
  congr 1
  funext a
  apply Fin.ext
  match a with
  | ⟨0, _⟩ => show win1_4.index t 0 * 4096 + 1 * j.val = j.val; rw [e0]; omega
  | ⟨1, _⟩ => show win1_4.index t 1 * 128 + 1 * q.val = q.val; rw [e1]; omega

/-- What the output array ends holding: the kernel's row formula, entry by entry, on the arrays as the region finds them. -/
private abbrev G1 (c : Dev nD) : S8192x128.Idx → EReal := fun idx =>
  aggRow (score (emb (fun r k => (V c main_arg1 : S8192x1024.Idx → EReal) (ix2 r k)) (fun k d => (V c main_v0 : S1024x512.Idx → EReal) (ix2 k d))
                   (fun d => (V c main_v1 : S1x512.Idx → EReal) (ix2 0 d)))
                 (fun j d => (V c main_v7 : S4096x512.Idx → EReal) (ix2 j d)) (idx 0))
          (fun j c' => (V c main_v6 : S4096x128.Idx → EReal) (ix2 j c')) (idx 1)

/-- The row formula on point `t`'s blocks, at row `p` of the block, is the row formula on the arrays at row `512·t + p`. -/
private theorem block_eq_G (c : Dev nD) (t : Fin cfg1.N) (p : Fin 512) (q : Fin 128) (R : Fin 8192) (hR : R.val = 512 * t.val + p.val) :
    aggRow (score (qe (iblk1 V c 0 t) (iblk1 V c 1 t) (iblk1 V c 2 t)) (fun j d => (iblk1 V c 3 t : Vec Ideal S4096x512 .bf16) (ix2 j d)) p)
        (fun j c' => (iblk1 V c 4 t : Vec Ideal S4096x128 .bf16) (ix2 j c')) q
      = G1 V c (ix2 R q) := by
  simp only [qe, G1, blk1_apply V c t, blk2_apply V c t, blk3_apply V c t, blk4_apply V c t]
  have hrow : ∀ d, emb (fun r k => (iblk1 V c 0 t : Vec Ideal S512x1024 .f32) (ix2 r k)) (fun k d => (V c main_v0 : S1024x512.Idx → EReal) (ix2 k d))
        (fun d => (V c main_v1 : S1x512.Idx → EReal) (ix2 0 d)) p d
      = emb (fun r k => (V c main_arg1 : S8192x1024.Idx → EReal) (ix2 r k)) (fun k d => (V c main_v0 : S1024x512.Idx → EReal) (ix2 k d))
        (fun d => (V c main_v1 : S1x512.Idx → EReal) (ix2 0 d)) R d :=
    fun d => emb_row _ _ _ _ p R (fun k => blk0_apply V c t p k R hR) d
  have hs : score (emb (fun r k => (iblk1 V c 0 t : Vec Ideal S512x1024 .f32) (ix2 r k)) (fun k d => (V c main_v0 : S1024x512.Idx → EReal) (ix2 k d))
        (fun d => (V c main_v1 : S1x512.Idx → EReal) (ix2 0 d))) (fun j d => (V c main_v7 : S4096x512.Idx → EReal) (ix2 j d)) p
      = score (emb (fun r k => (V c main_arg1 : S8192x1024.Idx → EReal) (ix2 r k)) (fun k d => (V c main_v0 : S1024x512.Idx → EReal) (ix2 k d))
        (fun d => (V c main_v1 : S1x512.Idx → EReal) (ix2 0 d))) (fun j d => (V c main_v7 : S4096x512.Idx → EReal) (ix2 j d)) R :=
    funext fun j => by unfold score; simp only [hrow]
  rw [hs]

/-- WHAT POINT `t` WRITES BACK is block `t` of the row formula's array. -/
private theorem flushed_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  obtain ⟨-, -, -, -, -, -, -, -, -, -, e0, e1⟩ := idx_facts t
  funext j
  rw [View.read_apply]
  have hj0 : (j 0).val < 512 := (j 0).isLt
  have hj1 : (j 1).val < 128 := (j 1).isLt
  have ht : t.val < 16 := t.isLt
  unfold outsAt1
  refine (block_apply (iblk1 V c 0 t) (iblk1 V c 1 t) (iblk1 V c 2 t) (iblk1 V c 3 t) (iblk1 V c 4 t) c (grid1.coords t)
    (ms1_0 t) (hs1_0 t) (ms1_1 t) (hs1_1 t) (ms1_2 t) (hs1_2 t) (ms1_3 t) (hs1_3 t) (ms1_4 t) (hs1_4 t) (ms1_5 t) (hs1_5 t)
    ((cfg1.win 5).xinj (grid1.coords t) j)).trans ?_
  refine (block_eq_G V c t ⟨(j 0).val, hj0⟩ ⟨(j 1).val, hj1⟩ ⟨512 * t.val + (j 0).val, by omega⟩ rfl).trans ?_
  show G1 V c _ = G1 V c _
  congr 1
  funext a
  apply Fin.ext
  match a with
  | ⟨0, _⟩ => show 512 * t.val + (j 0).val = win1_5.index t 0 * 512 + 1 * (j 0).val; rw [e0]; omega
  | ⟨1, _⟩ => show (j 1).val = win1_5.index t 1 * 128 + 1 * (j 1).val; rw [e1]; omega

/-- An index of the output array is in point `t`'s block iff each coordinate is in the block's range on its axis. -/
private theorem mem_blk (t : Fin cfg1.N) (i : S8192x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v8).slice (win1_5.rect t)).set ↔ _
  rw [View.set_slice_whole, Rect.mem_set_unit]
  exact Iff.rfl

/-- Row `r` of the output array lies in the block of point `r / 512`. -/
private theorem covered (i : S8192x128.Idx) : ∃ t : Fin cfg1.N, (cfg1.win 5).flush t = true ∧ i ∈ ((cfg1.win 5).blk t).view.set := by
  have hi0 : (i 0).val < 8192 := (i 0).isLt
  have hi1 : (i 1).val < 128 := (i 1).isLt
  have hN : cfg1.N = 16 := N_1
  let t : Fin cfg1.N := ⟨(i 0).val / 512, by rw [hN]; omega⟩
  obtain ⟨-, -, -, -, -, -, -, -, -, -, e0, e1⟩ := idx_facts t
  refine ⟨t, flush1_5 t, ?_⟩
  rw [mem_blk]
  intro a
  match a with
  | ⟨0, _⟩ => show win1_5.index t 0 * 512 ≤ (i 0).val ∧ (i 0).val < win1_5.index t 0 * 512 + 512
              rw [e0]; show (i 0).val / 512 * 512 ≤ (i 0).val ∧ (i 0).val < (i 0).val / 512 * 512 + 512; omega
  | ⟨1, _⟩ => show win1_5.index t 1 * 128 ≤ (i 1).val ∧ (i 1).val < win1_5.index t 1 * 128 + 128
              rw [e1]; omega

/-- After the second region its output array holds, at row `i` and column `c'`, the kernel's row formula on the scores of
    query row `i` against the rows of the embedded-support array, aggregated against the 128-column table. -/
theorem arr1 (c : Dev nD) (idx : S8192x128.Idx) :
    ((dat1 (F := Ideal) V c).arrAt 5 cfg1.N : S8192x128.Idx → EReal) idx
      = aggRow (score (emb (fun r k => (V c main_arg1 : S8192x1024.Idx → EReal) (ix2 r k)) (fun k d => (V c main_v0 : S1024x512.Idx → EReal) (ix2 k d))
                   (fun d => (V c main_v1 : S1x512.Idx → EReal) (ix2 0 d)))
                 (fun j d => (V c main_v7 : S4096x512.Idx → EReal) (ix2 j d)) (idx 0))
          (fun j c' => (V c main_v6 : S4096x128.Idx → EReal) (ix2 j c')) (idx 1) :=
  congrFun ((dat1 (F := Ideal) V c).arrAt_eq_of_cover 5 (G1 V c) (fun t _ => flushed_eq V c t) (covered)) idx

end Cert.Matching.Ker

end
-- ==== Proof.HostSide.lean ====
import proofs.«427850_j67095979098677_3_alg».proof.Proof.Gen.KernelIdeal.Frame
import proofs.«427850_j67095979098677_3_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.ValueLayout
import Idealize.ShloMosaic.Lib.KernelVsHost

set_option maxRecDepth 16384

noncomputable section

open scoped BigOperators
open Idealize.ShloMosaic Idealize.ShloMosaic.ValueIdx Idealize.ShloMosaic.TcCoe Idealize.SL.Sem
open Cert.KernelIdeal Cert.KernelIdeal.Gen Cert.Matching

namespace Cert.Matching.Ker

variable (m : (ℓ : Loc nD τ sig) → Buf (Elt Ideal) ℓ) (ρ : Dev nD → PrngReg)

/-- No operation of a literal stretch writes the buffer: every operation's result buffer is another reference. -/
local macro "unwritten" : tactic =>
  `(tactic| (
    refine List.forall_iff_forall_mem.mp ?_
    simp only [hostOps0, hostOps0_1, hostOps0_2, hostOps0_3, hostOps0_4, hostOps2, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- A buffer that the four later stretches before the first region leave alone holds at the region's entry what
    the first stretch left in it. -/
private theorem W5_eq_W1 (c : Dev nD) (b : Ref sig .tc)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes)
    (h3 : ∀ op ∈ (hostOps0_3 : List (HloOp τ sig (Elt Ideal))), (Proc.devRef .tc b : DevRef τ sig) ∉ op.writes)
    (h4 : ∀ op ∈ (hostOps0_4 : List (HloOp τ sig (Elt Ideal))), (Proc.devRef .tc b : DevRef τ sig) ∉ op.writes) :
    W5 m ρ c (Proc.devRef .tc b) = W1 m ρ c (Proc.devRef .tc b) :=
  calc W5 m ρ c (Proc.devRef .tc b)
    _ = W4 m ρ c (Proc.devRef .tc b) := StableHlo.after_of_forall_not_mem (b := Proc.devRef .tc b) _ _ h4
    _ = W3 m ρ c (Proc.devRef .tc b) := StableHlo.after_of_forall_not_mem (b := Proc.devRef .tc b) _ _ h3
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1

/-- A buffer no stretch before the first region writes holds at the region's entry its launch contents. -/
private theorem W5_launch (c : Dev nD) (b : Ref sig .tc)
    (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes)
    (h3 : ∀ op ∈ (hostOps0_3 : List (HloOp τ sig (Elt Ideal))), (Proc.devRef .tc b : DevRef τ sig) ∉ op.writes)
    (h4 : ∀ op ∈ (hostOps0_4 : List (HloOp τ sig (Elt Ideal))), (Proc.devRef .tc b : DevRef τ sig) ∉ op.writes) :
    W5 m ρ c (Proc.devRef .tc b) = m ((c : Thread nD τ).loc b) :=
  calc W5 m ρ c (Proc.devRef .tc b)
    _ = W1 m ρ c (Proc.devRef .tc b) := W5_eq_W1 m ρ c b h1 h2 h3 h4
    _ = W0 m ρ c (Proc.devRef .tc b) := StableHlo.after_of_forall_not_mem (b := Proc.devRef .tc b) _ _ h0
    _ = m ((c : Thread nD τ).loc b) := rfl

/-! What the buffers hold when each region is entered, and the result after the last host operation. -/

theorem V5_arg0 (c : Dev nD) : V5 m ρ c main_arg0 = m ((c : Thread nD τ).loc main_arg0) :=
  W5_launch m ρ c main_arg0 (by unwritten) (by unwritten) (by unwritten) (by unwritten) (by unwritten)
theorem V5_w (c : Dev nD) (i : S1024x512.Idx) : (V5 m ρ c main_v0 : S1024x512.Idx → EReal) i = (m ((c : Thread nD τ).loc main_arg2) : S1024x512.Idx → EReal) i := by
  show (W5 m ρ c (Proc.devRef .tc main_v0) : S1024x512.Idx → EReal) i = _
  rw [W5_eq_W1 m ρ c main_v0 (by unwritten) (by unwritten) (by unwritten) (by unwritten)]
  show (StableHlo.after hostOps0 (W0 m ρ c) (Proc.devRef .tc main_v0) : S1024x512.Idx → EReal) i = _
  after_results
  rfl
theorem V5_b (c : Dev nD) (d : Fin 512) : (V5 m ρ c main_v1 : S1x512.Idx → EReal) (ix2 0 d) = (m ((c : Thread nD τ).loc main_arg3) : S512.Idx → EReal) (ix1 d) := by
  show (W5 m ρ c (Proc.devRef .tc main_v1) : S1x512.Idx → EReal) (ix2 0 d) = _
  rw [W5_eq_W1 m ρ c main_v1 (by unwritten) (by unwritten) (by unwritten) (by unwritten)]
  show (StableHlo.after hostOps0 (W0 m ρ c) (Proc.devRef .tc main_v1) : S1x512.Idx → EReal) (ix2 0 d) = _
  after_results
  exact shapeCast_a_1a_apply _ shapeCasts_S512_S1x512 0 d
theorem V6_arg1 (c : Dev nD) : V6 m ρ c main_arg1 = m ((c : Thread nD τ).loc main_arg1) :=
  (W6_of_ne m ρ c main_arg1 (by decide)).trans
    (W5_launch m ρ c main_arg1 (by unwritten) (by unwritten) (by unwritten) (by unwritten) (by unwritten))
theorem V6_w (c : Dev nD) (i : S1024x512.Idx) : (V6 m ρ c main_v0 : S1024x512.Idx → EReal) i = (m ((c : Thread nD τ).loc main_arg2) : S1024x512.Idx → EReal) i := by
  have e : V6 m ρ c main_v0 = V5 m ρ c main_v0 :=
    (W6_arr m ρ c 1).trans (((dat0 (V5 m ρ) c).arrAt_in 1 rfl _).trans (A_eq0 (V5 m ρ) c 1))
  rw [e]
  exact V5_w m ρ c i
theorem V6_b (c : Dev nD) (d : Fin 512) : (V6 m ρ c main_v1 : S1x512.Idx → EReal) (ix2 0 d) = (m ((c : Thread nD τ).loc main_arg3) : S512.Idx → EReal) (ix1 d) := by
  have e : V6 m ρ c main_v1 = V5 m ρ c main_v1 :=
    (W6_arr m ρ c 2).trans (((dat0 (V5 m ρ) c).arrAt_in 2 rfl _).trans (A_eq0 (V5 m ρ) c 2))
  rw [e]
  exact V5_b m ρ c d
theorem V6_semb (c : Dev nD) : V6 m ρ c main_v7 = (dat0 (F := Ideal) (V5 m ρ) c).arrAt 3 cfg0.N :=
  W6_arr m ρ c 3

/-! ### The table of the second region, stretch by stretch, over any contents `V` the stretch is entered with -/

/-- The one-hot stretch leaves in its result, at `(j, k)`, the word "label `j` equals `k`" as a number: the labels
    broadcast along the columns meet the column numbers broadcast along the rows. -/
private theorem after1_v2 (V : Valuation τ sig (Elt Ideal)) (j : Fin 4096) (k : Fin 64) :
    (StableHlo.after hostOps0_1 V (Proc.devRef .tc main_v2) : S4096x64.Idx → EReal) (ix2 j k)
      = hot (fun j => (V (Proc.devRef .tc main_arg4) : S4096.Idx → BitVec 32) (ix1 j)) j k := by
  after_results
  have e1 : broadcastInDim S4096x64 ![0, 1] bcast_S4096x1_S4096x64_0_1
      (broadcastInDim S4096x1 ![0] bcast_S4096_S4096x1_0 (V (Proc.devRef .tc main_arg4) : S4096.Idx → BitVec 32)) (ix2 j k)
      = (V (Proc.devRef .tc main_arg4) : S4096.Idx → BitVec 32) (ix1 j) := by
    rw [broadcastInDim_apply _ bcast_S4096x1_S4096x64_0_1 _ (ix2 j k) (ix2 j (0 : Fin 1)) (fun a => match a with
      | ⟨0, _⟩ => by show j.val = if (4096 : Nat) = 1 then 0 else j.val; rw [if_neg (by decide)]
      | ⟨1, _⟩ => by show 0 = if (1 : Nat) = 1 then 0 else k.val; rw [if_pos rfl])]
    exact broadcastInDim_apply _ bcast_S4096_S4096x1_0 _ (ix2 j (0 : Fin 1)) (ix1 j) (fun a => match a with
      | ⟨0, _⟩ => by show j.val = if (4096 : Nat) = 1 then 0 else j.val; rw [if_neg (by decide)])
  have e2 : broadcastInDim S4096x64 ![0, 1] bcast_S1x64_S4096x64_0_1 (iotaInDim S1x64 32 1) (ix2 j k) = BitVec.ofNat 32 k.val := by
    rw [broadcastInDim_apply _ bcast_S1x64_S4096x64_0_1 _ (ix2 j k) (ix2 (0 : Fin 1) k) (fun a => match a with
      | ⟨0, _⟩ => by show 0 = if (1 : Nat) = 1 then 0 else j.val; rw [if_pos rfl]
      | ⟨1, _⟩ => by show k.val = if (64 : Nat) = 1 then 0 else k.val; rw [if_neg (by decide)])]
    rfl
  exact congrArg (FloatOps.uitofp (F := Ideal) .f32) (congrArg₂ (IntOp.cmpi .eq) e1 e2)

/-- The next stretch appends a column of ones to the one-hot table … -/
private theorem after2_v4 (V : Valuation τ sig (Elt Ideal)) (j : Fin 4096) (k : Fin 65) :
    (StableHlo.after hostOps0_2 V (Proc.devRef .tc main_v4) : S4096x65.Idx → EReal) (ix2 j k)
      = if h : k.val < 64 then (V (Proc.devRef .tc main_v2) : S4096x64.Idx → EReal) (ix2 j ⟨k.val, h⟩) else one := by
  after_results
  by_cases h : k.val < 64
  · rw [dif_pos h]
    exact concatenate_pair_apply_left 1 _ _ concatenates_S4096x64_S4096x1_S4096x65_d1 (ix2 j k) rfl (ix2 j ⟨k.val, h⟩)
      (fun b => match b with
        | ⟨0, _⟩ => rfl
        | ⟨1, _⟩ => rfl)
  · rw [dif_neg h]
    rw [concatenate_pair_apply_right 1 _ _ concatenates_S4096x64_S4096x1_S4096x65_d1 (ix2 j k) rfl rfl (ix2 j (0 : Fin 1))
      (fun b => match b with
        | ⟨0, _⟩ => fun _ => rfl
        | ⟨1, _⟩ => fun hb => absurd (Fin.ext rfl) hb)
      (by show 0 + 64 = k.val; have := k.isLt; omega)]
    rfl

/-- … and leaves the integer zero in its scalar. -/
private theorem after2_c (V : Valuation τ sig (Elt Ideal)) (i : S_.Idx) :
    (StableHlo.after hostOps0_2 V (Proc.devRef .tc main_c) : S_.Idx → BitVec 32) i = 0#32 := by
  after_results
  rfl

/-- The padding stretch widens the table to 128 columns with the scalar converted. -/
private theorem after3_v5 (V : Valuation τ sig (Elt Ideal)) (j : Fin 4096) (c' : Fin 128) :
    (StableHlo.after hostOps0_3 V (Proc.devRef .tc main_v5) : S4096x128.Idx → EReal) (ix2 j c')
      = if h : c'.val < 65 then (V (Proc.devRef .tc main_v4) : S4096x65.Idx → EReal) (ix2 j ⟨c'.val, h⟩)
        else FloatOps.sitofp (F := Ideal) .f32 ((V (Proc.devRef .tc main_c) : S_.Idx → BitVec 32) (Shape.Idx.first h_S_)) := by
  after_results
  show pad S4096x128 ![0, 0] ![0, 63] ![0, 0] (V (Proc.devRef .tc main_v4) : S4096x65.Idx → EReal)
      (sitofp (F := Ideal) .f32 (V (Proc.devRef .tc main_c) : S_.Idx → BitVec 32)) pads_S4096x65_S4096x128_000_0630 h_S_ (ix2 j c') = _
  by_cases h : c'.val < 65
  · rw [dif_pos h]
    exact pad_apply_of_inside _ _ _ _ _ pads_S4096x65_S4096x128_000_0630 h_S_ (ix2 j c') (ix2 j ⟨c'.val, h⟩)
      (fun a => match a with
        | ⟨0, _⟩ => by show j.val = 0 + j.val * (0 + 1); omega
        | ⟨1, _⟩ => by show c'.val = 0 + c'.val * (0 + 1); omega)
  · rw [dif_neg h]
    exact pad_apply_of_not_inside _ _ _ _ _ pads_S4096x65_S4096x128_000_0630 h_S_ (ix2 j c') 1 (by
      show ¬(0 ≤ c'.val ∧ (c'.val - 0) % (0 + 1) = 0 ∧ (c'.val - 0) / (0 + 1) < 65)
      omega)

/-- The last stretch before the first region changes the table's format only. -/
private theorem after4_v6 (V : Valuation τ sig (Elt Ideal)) (i : S4096x128.Idx) :
    (StableHlo.after hostOps0_4 V (Proc.devRef .tc main_v6) : S4096x128.Idx → EReal) i
      = (V (Proc.devRef .tc main_v5) : S4096x128.Idx → EReal) i := by
  after_results
  rfl

/-- The first stretch leaves the labels as launched. -/
private theorem W1_arg4 (c : Dev nD) : W1 m ρ c (Proc.devRef .tc main_arg4) = m ((c : Thread nD τ).loc main_arg4) :=
  (StableHlo.after_of_forall_not_mem (b := Proc.devRef .tc main_arg4) _ _ (by unwritten)).trans rfl

theorem V6_va (c : Dev nD) (j : Fin 4096) (c' : Fin 128) :
    (V6 m ρ c main_v6 : S4096x128.Idx → EReal) (ix2 j c') = vaug (fun j => (m ((c : Thread nD τ).loc main_arg4) : S4096.Idx → BitVec 32) (ix1 j)) j c' := by
  show (W6 m ρ c (Proc.devRef .tc main_v6) : S4096x128.Idx → EReal) (ix2 j c') = _
  rw [W6_of_ne m ρ c main_v6 (by decide)]
  show (StableHlo.after hostOps0_4 (W4 m ρ c) (Proc.devRef .tc main_v6) : S4096x128.Idx → EReal) (ix2 j c') = _
  rw [after4_v6]
  show (StableHlo.after hostOps0_3 (W3 m ρ c) (Proc.devRef .tc main_v5) : S4096x128.Idx → EReal) (ix2 j c') = _
  rw [after3_v5]
  unfold vaug
  by_cases h65 : c'.val < 65
  · rw [dif_pos h65]
    show (StableHlo.after hostOps0_2 (W2 m ρ c) (Proc.devRef .tc main_v4) : S4096x65.Idx → EReal) (ix2 j ⟨c'.val, h65⟩) = _
    rw [after2_v4]
    by_cases h64 : c'.val < 64
    · rw [dif_pos (show (⟨c'.val, h65⟩ : Fin 65).val < 64 from h64), dif_pos h64]
      show (StableHlo.after hostOps0_1 (W1 m ρ c) (Proc.devRef .tc main_v2) : S4096x64.Idx → EReal) (ix2 j ⟨c'.val, h64⟩) = _
      rw [after1_v2, W1_arg4]
    · rw [dif_neg (show ¬(⟨c'.val, h65⟩ : Fin 65).val < 64 from h64), dif_neg h64, if_pos (by omega)]
  · rw [dif_neg h65, dif_neg (by omega), if_neg (by omega)]
    show FloatOps.sitofp (F := Ideal) .f32
      ((StableHlo.after hostOps0_2 (W2 m ρ c) (Proc.devRef .tc main_c) : S_.Idx → BitVec 32) (Shape.Idx.first h_S_)) = 0
    rw [after2_c]
    show ((((0#32 : BitVec 32).toInt : ℤ) : ℝ) : EReal) = 0
    simp

theorem W8_res (c : Dev nD) (idx : S8192x64.Idx) :
    (W8 m ρ c (Proc.devRef .tc main_v9) : S8192x64.Idx → EReal) idx
      = ((dat1 (F := Ideal) (V6 m ρ) c).arrAt 5 cfg1.N : S8192x128.Idx → EReal) (ix2 (idx 0) (Fin.castLE (by decide) (idx 1))) := by
  show (StableHlo.after hostOps2 (W7 m ρ c) (Proc.devRef .tc main_v9) : S8192x64.Idx → EReal) idx = _
  after_results
  rw [show W7 m ρ c (Proc.devRef .tc main_v8) = (dat1 (F := Ideal) (V6 m ρ) c).arrAt 5 cfg1.N from W7_arr m ρ c 5]
  exact extractStridedSlice_apply _ _ slices_S8192x128_S8192x64_0_0 idx _ (fun a => by
    match a with
    | ⟨0, _⟩ => exact (Nat.zero_add _).symm
    | ⟨1, _⟩ => exact (Nat.zero_add _).symm)

end Cert.Matching.Ker

end
-- ==== Proof.lean ====
/-
  The matching network's kernel against its reference, over the extended reals.

  Both programs embed every support row and every query row by one linear layer followed by division by the row's
  Euclidean norm floored at a small positive word, and score each query row against each support row by the inner
  product of the embeddings.  The reference takes the softmax of a query row's 4096 scores — the row maximum subtracted
  before the exponential — and multiplies it into the one-hot table of the labels.  The kernel subtracts the constant
  one instead of the maximum, multiplies the exponentials into a table that carries the one-hot columns and one column
  of ones, four chunks of 1024 support rows at a time, and divides each row by its entry in the column of ones.

  On real scores the two agree: the common factor `exp (−M)` or `exp (−1)` cancels between a numerator and its
  denominator, and dividing a finite sum of reals by a positive real is dividing each term.  The scores are real because
  the inputs are (the precondition) and every norm's floor is positive.  Nothing is asked of the integer labels: both
  programs build the table by the same comparison.
-/
import proofs.«427850_j67095979098677_3_alg».proof.Defs
import proofs.«427850_j67095979098677_3_alg».proof.Proof.Gen.Kernel
import proofs.«427850_j67095979098677_3_alg».proof.Proof.Gen.Kernel.Frame
import proofs.«427850_j67095979098677_3_alg».proof.Proof.Gen.KernelIdeal
import proofs.«427850_j67095979098677_3_alg».proof.Proof.Gen.KernelIdeal.Frame
import proofs.«427850_j67095979098677_3_alg».proof.Proof.Gen.ReferenceIdeal
import proofs.«427850_j67095979098677_3_alg».proof.Proof.Gen.Pre_finite_inputs
import proofs.«427850_j67095979098677_3_alg».proof.Proof.Gen.ReferenceIdeal.Run
import proofs.«427850_j67095979098677_3_alg».proof.Proof.Gen.ReferenceIdeal.Read
import proofs.«427850_j67095979098677_3_alg».proof.Proof.Spec
import proofs.«427850_j67095979098677_3_alg».proof.Proof.Softmax
import proofs.«427850_j67095979098677_3_alg».proof.Proof.Finite
import proofs.«427850_j67095979098677_3_alg».proof.Proof.PreFinite
import proofs.«427850_j67095979098677_3_alg».proof.Proof.RefValue
import proofs.«427850_j67095979098677_3_alg».proof.Proof.Region0
import proofs.«427850_j67095979098677_3_alg».proof.Proof.Region1
import proofs.«427850_j67095979098677_3_alg».proof.Proof.HostSide
import proofs.«427850_j67095979098677_3_alg».proof.Proof.KernelRun
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem
open Cert.Matching

section Result
open Cert.KernelIdeal Cert.KernelIdeal.Gen

variable (m : (ℓ : Loc nD τ sig) → Buf (Elt Ideal) ℓ) (ρ : Dev nD → PrngReg) (c : Dev nD)

/-- The four float inputs and the labels of core `c`, as plain functions of their coordinates. -/
abbrev inS : Fin 4096 → Fin 1024 → EReal := fun r k => (m ((c : Thread nD τ).loc main_arg0) : S4096x1024.Idx → EReal) (ix2 r k)
abbrev inQ : Fin 8192 → Fin 1024 → EReal := fun r k => (m ((c : Thread nD τ).loc main_arg1) : S8192x1024.Idx → EReal) (ix2 r k)
abbrev inW : Fin 1024 → Fin 512 → EReal := fun k d => (m ((c : Thread nD τ).loc main_arg2) : S1024x512.Idx → EReal) (ix2 k d)
abbrev inB : Fin 512 → EReal := fun d => (m ((c : Thread nD τ).loc main_arg3) : S512.Idx → EReal) (ix1 d)
abbrev inL : Fin 4096 → BitVec 32 := fun j => (m ((c : Thread nD τ).loc main_arg4) : S4096.Idx → BitVec 32) (ix1 j)

/-- The kernel's result buffer, entry `(i, c')`, is the specification's `G` of the launch memory: the tail's slice of the
    second region's array, that array the row formula over the first region's array, that one the support embeddings,
    every window read back to the inputs. -/
theorem kernel_result (i : Fin 8192) (c' : Fin 64) :
    (W8 m ρ c (Proc.devRef .tc main_v9) : S8192x64.Idx → EReal) (ix2 i c')
      = G (inS m c) (inQ m c) (inW m c) (inB m c) (inL m c) i c' := by
  rw [Ker.W8_res m ρ c (ix2 i c'), Ker.arr1 (V6 m ρ) c]
  have eQ : (fun r k => (V6 m ρ c main_arg1 : S8192x1024.Idx → EReal) (ix2 r k)) = inQ m c :=
    funext fun r => funext fun k => congrFun (Ker.V6_arg1 m ρ c) (ix2 r k)
  have eW : (fun k d => (V6 m ρ c main_v0 : S1024x512.Idx → EReal) (ix2 k d)) = inW m c :=
    funext fun k => funext fun d => Ker.V6_w m ρ c (ix2 k d)
  have eB : (fun d => (V6 m ρ c main_v1 : S1x512.Idx → EReal) (ix2 0 d)) = inB m c :=
    funext fun d => Ker.V6_b m ρ c d
  have eW5 : (fun k d => (V5 m ρ c main_v0 : S1024x512.Idx → EReal) (ix2 k d)) = inW m c :=
    funext fun k => funext fun d => Ker.V5_w m ρ c (ix2 k d)
  have eB5 : (fun d => (V5 m ρ c main_v1 : S1x512.Idx → EReal) (ix2 0 d)) = inB m c :=
    funext fun d => Ker.V5_b m ρ c d
  have eS5 : (fun r k => (V5 m ρ c main_arg0 : S4096x1024.Idx → EReal) (ix2 r k)) = inS m c :=
    funext fun r => funext fun k => congrFun (Ker.V5_arg0 m ρ c) (ix2 r k)
  have eE : (fun j d => (V6 m ρ c main_v7 : S4096x512.Idx → EReal) (ix2 j d)) = emb (inS m c) (inW m c) (inB m c) :=
    funext fun j => funext fun d => by
      rw [Ker.V6_semb m ρ c, Ker.arr0 (V5 m ρ) c (ix2 j d), eS5, eW5, eB5]
  have eV : (fun j c'' => (V6 m ρ c main_v6 : S4096x128.Idx → EReal) (ix2 j c'')) = vaug (inL m c) :=
    funext fun j => funext fun c'' => Ker.V6_va m ρ c j c''
  rw [eQ, eW, eB, eE, eV]
  rfl

end Result

section Reference
open Cert.KernelIdeal Cert.KernelIdeal.Gen

variable (m : (ℓ : Loc nD τ sig) → Buf (Elt Ideal) ℓ) (c : Dev nD)

/-- The reference's last stage on the same inputs, entry `(i, c')`, is `G` too: its softmax aggregate against a one-hot
    column is the kernel's quotient, the scores being real under the precondition. -/
theorem reference_result
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1)
    (i : Fin 8192) (c' : Fin 64) :
    (Cert.ReferenceIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        : Cert.ReferenceIdeal.S8192x64.Idx → EReal) (ix2 i c')
      = G (inS m c) (inQ m c) (inW m c) (inB m c) (inL m c) i c' := by
  obtain ⟨h0, h1, h2, h3⟩ := Pre.real_of_pre _ _ _ _ _ hpre
  rw [Ref.ref_stage]
  exact refRow_hot_eq_aggRow _
    (fun j => score_real _ _ (emb_real _ _ _ (fun r k => h1 _) (fun k d => h2 _) (fun d => h3 _))
      (emb_real _ _ _ (fun r k => h0 _) (fun k d => h2 _) (fun d => h3 _)) i j) _ c'

end Reference

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read over the extended reals. -/
theorem preserves : Cert.preserves_Kernel_KernelIdeal := trivial

/-- Both runs end with the result at `G` of the (agreeing) inputs. -/
theorem algebraic : Cert.algebraic_KernelIdeal_ReferenceIdeal := by
  intro m ρ m' ρ' hpre hagree
  refine ⟨fun c => Cert.KernelIdeal.Gen.W8 m ρ c (Proc.devRef .tc Cert.KernelIdeal.main_v9), Ker.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2.1, (hagree c).2.2.2.2]
  funext idx
  obtain ⟨i, c', rfl⟩ : ∃ (i : Fin 8192) (c' : Fin 64), idx = ix2 i c' := ⟨idx 0, idx 1, eq_ix2 idx⟩
  exact (reference_result m c (hpre c) i c').trans (kernel_result m ρ c i c').symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
